-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x4 : Shape := ⟨2, ![65536, 4]⟩
abbrev S1x4096 : Shape := ⟨2, ![1, 4096]⟩
abbrev S1 : Shape := ⟨1, ![1]⟩
abbrev S_ : Shape := ⟨0, ![]⟩

class Facts : Prop where
  bcast_S_S65536x4 : S_.BroadcastsInDim S65536x4 (![] : Fin 0 → Fin S65536x4.rank)
  reducesTo_S65536x4_S_d0_1 : S65536x4.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S65536x4 .f32) (main_arg1 : FVec F S1x4096 .f32) (main_arg2 : FVec F S1 .f32) : IVec S_ 1 :=
  let main_v0 : FVec F S65536x4 .f32 := Host.absf main_arg0
  let main_cst : FVec F S_ .f32 := constant S_ .f32 0x7F800000#32
  let main_v1 : FVec F S65536x4 .f32 := broadcastInDim S65536x4 ![] bcast_S_S65536x4 main_cst
  let main_v2 : IVec S65536x4 1 := cmpf .olt main_v0 main_v1
  let main_c : IVec S_ 1 := constantI S_ 1 1#1
  let main_v3 : IVec S_ 1 := (fun x v => Host.reduce IntOp.andi x v reducesTo_S65536x4_S_d0_1 h_S_) main_v2 main_c
  let main_v4 : FVec F S1x4096 .f32 := Host.absf main_arg1
  let main_cst_0 : FVec F S_ .f32 := constant S_ .f32 0x7F800000#32
  let main_v5 : FVec F S1x4096 .f32 := broadcastInDim S1x4096 ![] bcast_S_S1x4096 main_cst_0
  let main_v6 : IVec S1x4096 1 := cmpf .olt main_v4 main_v5
  let main_c_1 : IVec S_ 1 := constantI S_ 1 1#1
  let main_v7 : IVec S_ 1 := (fun x v => Host.reduce IntOp.andi x v reducesTo_S1x4096_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S65536x4 : Shape := ⟨2, ![65536, 4]⟩
abbrev S1x4096 : Shape := ⟨2, ![1, 4096]⟩
abbrev S1 : Shape := ⟨1, ![1]⟩
abbrev S4x65536 : Shape := ⟨2, ![4, 65536]⟩
abbrev S64x64 : Shape := ⟨2, ![64, 64]⟩
abbrev S1x1 : Shape := ⟨2, ![1, 1]⟩
abbrev S1x65536 : Shape := ⟨2, ![1, 65536]⟩
abbrev S4x8192 : Shape := ⟨2, ![4, 8192]⟩
abbrev S1x8192 : Shape := ⟨2, ![1, 8192]⟩
abbrev S8x8192 : Shape := ⟨2, ![8, 8192]⟩
abbrev S64x8192 : Shape := ⟨2, ![64, 8192]⟩
abbrev S8192 : Shape := ⟨1, ![8192]⟩
abbrev S65536x1 : Shape := ⟨2, ![65536, 1]⟩

abbrev nBuf : Space → Nat
  | .hbm => 8
  | .vmem => 6
  | .smem => 0
  | _ => 0

abbrev bufTy : (tb : Table) → Fin (tcTables nBuf tb) → BufTy
  | .hbm, ⟨0, _⟩ => ⟨S65536x4, .f32⟩
  | .hbm, ⟨1, _⟩ => ⟨S1x4096, .f32⟩
  | .hbm, ⟨2, _⟩ => ⟨S1, .f32⟩
  | .hbm, ⟨3, _⟩ => ⟨S4x65536, .f32⟩
  | .hbm, ⟨4, _⟩ => ⟨S64x64, .f32⟩
  | .hbm, ⟨5, _⟩ => ⟨S1x1, .f32⟩
  | .hbm, ⟨6, _⟩ => ⟨S1x65536, .f32⟩
  | .hbm, ⟨7, _⟩ => ⟨S65536x1, .f32⟩
  | .local _ .vmem, ⟨0, _⟩ => ⟨S4x8192, .f32⟩
  | .local _ .vmem, ⟨1, _⟩ => ⟨S4x8192, .f32⟩
  | .local _ .vmem, ⟨2, _⟩ => ⟨S64x64, .f32⟩
  | .local _ .vmem, ⟨3, _⟩ => ⟨S1x1, .f32⟩
  | .local _ .vmem, ⟨4, _⟩ => ⟨S1x8192, .f32⟩
  | .local _ .vmem, ⟨5, _⟩ => ⟨S1x8192, .f32⟩
  | _, _ => ⟨S65536x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S65536x4_S4x65536_1_0 : S65536x4.Transposes [1, 0] S4x65536
  shapeCasts_S1x4096_S64x64 : S1x4096.ShapeCasts S64x64
  shapeCasts_S1_S1x1 : S1.ShapeCasts S1x1
  inb_S4x8192_S4x8192_0_0 : ∀ a, (![0, 0] : Fin 2 → Nat) a + S4x8192.size a ≤ S4x8192.size a
  h_S4x8192 : 0 < S4x8192.numel
  shapeCasts_S4x8192_S4x8192 : S4x8192.ShapeCasts S4x8192
  slices_S4x8192_o0_0_S1x8192 : S4x8192.Slices ![0, 0] S1x8192
  concatenates_S1x8192_S1x8192_S1x8192_S1x8192_S1x8192_S1x8192_S1x8192_S1x8192_S8x8192_d0 : Shape.Concatenates [S1x8192, S1x8192, S1x8192, S1x8192, S1x8192, S1x8192, S1x8192, S1x8192] S8x8192 0
  slices_S4x8192_o1_0_S1x8192 : S4x8192.Slices ![1, 0] S1x8192
  slices_S4x8192_o2_0_S1x8192 : S4x8192.Slices ![2, 0] S1x8192
  slices_S4x8192_o3_0_S1x8192 : S4x8192.Slices ![3, 0] S1x8192
  slices_S8x8192_o0_0_S1x8192 : S8x8192.Slices ![0, 0] S1x8192
  broadcasts_S1x8192_S8x8192 : S1x8192.Broadcasts S8x8192
  slices_S8x8192_o1_0_S1x8192 : S8x8192.Slices ![1, 0] S1x8192
  slices_S8x8192_o2_0_S1x8192 : S8x8192.Slices ![2, 0] S1x8192
  slices_S8x8192_o3_0_S1x8192 : S8x8192.Slices ![3, 0] S1x8192
  slices_S8x8192_o4_0_S1x8192 : S8x8192.Slices ![4, 0] S1x8192
  slices_S8x8192_o5_0_S1x8192 : S8x8192.Slices ![5, 0] S1x8192
  slices_S8x8192_o6_0_S1x8192 : S8x8192.Slices ![6, 0] S1x8192
  slices_S8x8192_o7_0_S1x8192 : S8x8192.Slices ![7, 0] S1x8192
  concatenates_S8x8192_S8x8192_S8x8192_S8x8192_S8x8192_S8x8192_S8x8192_S8x8192_S64x8192_d0 : Shape.Concatenates [S8x8192, S8x8192, S8x8192, S8x8192, S8x8192, S8x8192, S8x8192, S8x8192] S64x8192 0
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bitsLt_bf16_f32 : FTy.bits .bf16 < FTy.bits .f32
  reduces_S64x8192_S8192 : S64x8192.Reduces [0] S8192
  shapeCasts_S8192_S1x8192 : S8192.ShapeCasts S1x8192
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x8192 : S1x1.Broadcasts S1x8192
  inb_S1x8192_S1x8192_0_0 : ∀ a, (![0, 0] : Fin 2 → Nat) a + S1x8192.size a ≤ S1x8192.size a
  h_S1x8192 : 0 < S1x8192.numel
  transposes_S1x65536_S65536x1_1_0 : S1x65536.Transposes [1, 0] S65536x1
  dot_S64x64_S64x8192_S64x8192_1_0_0_1_n_n_wf : DotDims.WF S64x64 S64x8192 S64x8192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8192.size a ≤ S4x65536.size a
  hwx0_0 : ∀ i : grid0.Coords, EltTy.bits .f32 = 32 ∨ (Rect.block (s := S4x65536) S4x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x65536.size a
  hwx0_3 : ∀ i : grid0.Coords, EltTy.bits .f32 = 32 ∨ (Rect.block (s := S1x65536) S1x8192.size (cc0_transform_3 i) (hinb0_3 i)).WholeWords (EltTy.packing .f32)

variable [Facts₀]

def dot_S64x64_S64x8192_S64x8192_1_0_0_1_n_n : DotDims S64x64 S64x8192 S64x8192 where
  lhsContracting := [1]
  rhsContracting := [0]
  lhsNonContracting := [0]
  rhsNonContracting := [1]
  lhsBatch := []
  rhsBatch := []
  wf := dot_S64x64_S64x8192_S64x8192_1_0_0_1_n_n_wf

abbrev win0_0 : Pipeline.Window sig grid0 :=
  Pipeline.Window.ofSpec (Memref.whole main_v0) S4x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x4 : Shape := ⟨2, ![65536, 4]⟩
abbrev S1x4096 : Shape := ⟨2, ![1, 4096]⟩
abbrev S1 : Shape := ⟨1, ![1]⟩
abbrev S_ : Shape := ⟨0, ![]⟩
abbrev S65536x4x1 : Shape := ⟨3, ![65536, 4, 1]⟩
abbrev S65536x4x8 : Shape := ⟨3, ![65536, 4, 8]⟩
abbrev S65536x1x8 : Shape := ⟨3, ![65536, 1, 8]⟩
abbrev S65536x8 : Shape := ⟨2, ![65536, 8]⟩
abbrev S65536x8x1 : Shape := ⟨3, ![65536, 8, 1]⟩
abbrev S65536x8x8 : Shape := ⟨3, ![65536, 8, 8]⟩
abbrev S65536x64 : Shape := ⟨2, ![65536, 64]⟩
abbrev S65536x64x1 : Shape := ⟨3, ![65536, 64, 1]⟩
abbrev S65536x64x8 : Shape := ⟨3, ![65536, 64, 8]⟩
abbrev S65536x512 : Shape := ⟨2, ![65536, 512]⟩
abbrev S65536x512x1 : Shape := ⟨3, ![65536, 512, 1]⟩
abbrev S65536x512x8 : Shape := ⟨3, ![65536, 512, 8]⟩
abbrev S65536x4096 : Shape := ⟨2, ![65536, 4096]⟩
abbrev S4096x1 : Shape := ⟨2, ![4096, 1]⟩
abbrev S65536x1 : Shape := ⟨2, ![65536, 1]⟩
abbrev S1x1 : Shape := ⟨2, ![1, 1]⟩

abbrev nBuf : Space → Nat
  | .hbm => 111
  | .vmem => 0
  | .smem => 0
  | _ => 0

abbrev bufTy : (tb : Table) → Fin (tcTables nBuf tb) → BufTy
  | .hbm, ⟨0, _⟩ => ⟨S65536x4, .f32⟩
  | .hbm, ⟨1, _⟩ => ⟨S1x4096, .f32⟩
  | .hbm, ⟨2, _⟩ => ⟨S1, .f32⟩
  | .hbm, ⟨3, _⟩ => ⟨S_, .f32⟩
  | .hbm, ⟨4, _⟩ => ⟨S65536x4, .f32⟩
  | .hbm, ⟨5, _⟩ => ⟨S_, .f32⟩
  | .hbm, ⟨6, _⟩ => ⟨S65536x4, .f32⟩
  | .hbm, ⟨7, _⟩ => ⟨S65536x4, .f32⟩
  | .hbm, ⟨8, _⟩ => ⟨S65536x4, .f32⟩
  | .hbm, ⟨9, _⟩ => ⟨S_, .f32⟩
  | .hbm, ⟨10, _⟩ => ⟨S65536x4, .f32⟩
  | .hbm, ⟨11, _⟩ => ⟨S65536x4, .f32⟩
  | .hbm, ⟨12, _⟩ => ⟨S65536x4, .f32⟩
  | .hbm, ⟨13, _⟩ => ⟨S_, .f32⟩
  | .hbm, ⟨14, _⟩ => ⟨S65536x4, .f32⟩
  | .hbm, ⟨15, _⟩ => ⟨S65536x4, .f32⟩
  | .hbm, ⟨16, _⟩ => ⟨S_, .f32⟩
  | .hbm, ⟨17, _⟩ => ⟨S65536x4, .f32⟩
  | .hbm, ⟨18, _⟩ => ⟨S65536x4, .f32⟩
  | .hbm, ⟨19, _⟩ => ⟨S65536x4, .f32⟩
  | .hbm, ⟨20, _⟩ => ⟨S_, .f32⟩
  | .hbm, ⟨21, _⟩ => ⟨S65536x4, .f32⟩
  | .hbm, ⟨22, _⟩ => ⟨S65536x4, .f32⟩
  | .hbm, ⟨23, _⟩ => ⟨S65536x4, .f32⟩
  | .hbm, ⟨24, _⟩ => ⟨S_, .f32⟩
  | .hbm, ⟨25, _⟩ => ⟨S65536x4, .f32⟩
  | .hbm, ⟨26, _⟩ => ⟨S65536x4, .f32⟩
  | .hbm, ⟨27, _⟩ => ⟨S_, .f32⟩
  | .hbm, ⟨28, _⟩ => ⟨S65536x4, .f32⟩
  | .hbm, ⟨29, _⟩ => ⟨S65536x4, .f32⟩
  | .hbm, ⟨30, _⟩ => ⟨S65536x4, .f32⟩
  | .hbm, ⟨31, _⟩ => ⟨S_, .f32⟩
  | .hbm, ⟨32, _⟩ => ⟨S65536x4, .f32⟩
  | .hbm, ⟨33, _⟩ => ⟨S65536x4, .f32⟩
  | .hbm, ⟨34, _⟩ => ⟨S65536x4, .f32⟩
  | .hbm, ⟨35, _⟩ => ⟨S_, .f32⟩
  | .hbm, ⟨36, _⟩ => ⟨S65536x4, .f32⟩
  | .hbm, ⟨37, _⟩ => ⟨S65536x4, .f32⟩
  | .hbm, ⟨38, _⟩ => ⟨S_, .f32⟩
  | .hbm, ⟨39, _⟩ => ⟨S65536x4, .f32⟩
  | .hbm, ⟨40, _⟩ => ⟨S65536x4, .f32⟩
  | .hbm, ⟨41, _⟩ => ⟨S65536x4, .f32⟩
  | .hbm, ⟨42, _⟩ => ⟨S_, .f32⟩
  | .hbm, ⟨43, _⟩ => ⟨S65536x4, .f32⟩
  | .hbm, ⟨44, _⟩ => ⟨S65536x4, .f32⟩
  | .hbm, ⟨45, _⟩ => ⟨S65536x4, .f32⟩
  | .hbm, ⟨46, _⟩ => ⟨S_, .f32⟩
  | .hbm, ⟨47, _⟩ => ⟨S65536x4, .f32⟩
  | .hbm, ⟨48, _⟩ => ⟨S65536x4, .f32⟩
  | .hbm, ⟨49, _⟩ => ⟨S_, .f32⟩
  | .hbm, ⟨50, _⟩ => ⟨S65536x4, .f32⟩
  | .hbm, ⟨51, _⟩ => ⟨S65536x4, .f32⟩
  | .hbm, ⟨52, _⟩ => ⟨S65536x4, .f32⟩
  | .hbm, ⟨53, _⟩ => ⟨S_, .f32⟩
  | .hbm, ⟨54, _⟩ => ⟨S65536x4, .f32⟩
  | .hbm, ⟨55, _⟩ => ⟨S65536x4, .f32⟩
  | .hbm, ⟨56, _⟩ => ⟨S65536x4, .f32⟩
  | .hbm, ⟨57, _⟩ => ⟨S_, .f32⟩
  | .hbm, ⟨58, _⟩ => ⟨S65536x4, .f32⟩
  | .hbm, ⟨59, _⟩ => ⟨S65536x4, .f32⟩
  | .hbm, ⟨60, _⟩ => ⟨S_, .f32⟩
  | .hbm, ⟨61, _⟩ => ⟨S65536x4, .f32⟩
  | .hbm, ⟨62, _⟩ => ⟨S65536x4, .f32⟩
  | .hbm, ⟨63, _⟩ => ⟨S65536x4, .f32⟩
  | .hbm, ⟨64, _⟩ => ⟨S_, .f32⟩
  | .hbm, ⟨65, _⟩ => ⟨S65536x4, .f32⟩
  | .hbm, ⟨66, _⟩ => ⟨S65536x4, .f32⟩
  | .hbm, ⟨67, _⟩ => ⟨S65536x4, .f32⟩
  | .hbm, ⟨68, _⟩ => ⟨S_, .f32⟩
  | .hbm, ⟨69, _⟩ => ⟨S65536x4, .f32⟩
  | .hbm, ⟨70, _⟩ => ⟨S65536x4, .f32⟩
  | .hbm, ⟨71, _⟩ => ⟨S65536x4x1, .f32⟩
  | .hbm, ⟨72, _⟩ => ⟨S65536x4x1, .f32⟩
  | .hbm, ⟨73, _⟩ => ⟨S65536x4x1, .f32⟩
  | .hbm, ⟨74, _⟩ => ⟨S65536x4x1, .f32⟩
  | .hbm, ⟨75, _⟩ => ⟨S65536x4x1, .f32⟩
  | .hbm, ⟨76, _⟩ => ⟨S65536x4x1, .f32⟩
  | .hbm, ⟨77, _⟩ => ⟨S65536x4x1, .f32⟩
  | .hbm, ⟨78, _⟩ => ⟨S65536x4x1, .f32⟩
  | .hbm, ⟨79, _⟩ => ⟨S65536x4x8, .f32⟩
  | .hbm, ⟨80, _⟩ => ⟨S65536x1x8, .f32⟩
  | .hbm, ⟨81, _⟩ => ⟨S65536x8, .f32⟩
  | .hbm, ⟨82, _⟩ => ⟨S65536x8x1, .f32⟩
  | .hbm, ⟨83, _⟩ => ⟨S65536x1x8, .f32⟩
  | .hbm, ⟨84, _⟩ => ⟨S65536x8, .f32⟩
  | .hbm, ⟨85, _⟩ => ⟨S65536x1x8, .f32⟩
  | .hbm, ⟨86, _⟩ => ⟨S65536x8x8, .f32⟩
  | .hbm, ⟨87, _⟩ => ⟨S65536x8x8, .f32⟩
  | .hbm, ⟨88, _⟩ => ⟨S65536x8x8, .f32⟩
  | .hbm, ⟨89, _⟩ => ⟨S65536x64, .f32⟩
  | .hbm, ⟨90, _⟩ => ⟨S65536x64x1, .f32⟩
  | .hbm, ⟨91, _⟩ => ⟨S65536x1x8, .f32⟩
  | .hbm, ⟨92, _⟩ => ⟨S65536x8, .f32⟩
  | .hbm, ⟨93, _⟩ => ⟨S65536x1x8, .f32⟩
  | .hbm, ⟨94, _⟩ => ⟨S65536x64x8, .f32⟩
  | .hbm, ⟨95, _⟩ => ⟨S65536x64x8, .f32⟩
  | .hbm, ⟨96, _⟩ => ⟨S65536x64x8, .f32⟩
  | .hbm, ⟨97, _⟩ => ⟨S65536x512, .f32⟩
  | .hbm, ⟨98, _⟩ => ⟨S65536x512x1, .f32⟩
  | .hbm, ⟨99, _⟩ => ⟨S65536x1x8, .f32⟩
  | .hbm, ⟨100, _⟩ => ⟨S65536x8, .f32⟩
  | .hbm, ⟨101, _⟩ => ⟨S65536x1x8, .f32⟩
  | .hbm, ⟨102, _⟩ => ⟨S65536x512x8, .f32⟩
  | .hbm, ⟨103, _⟩ => ⟨S65536x512x8, .f32⟩
  | .hbm, ⟨104, _⟩ => ⟨S65536x512x8, .f32⟩
  | .hbm, ⟨105, _⟩ => ⟨S65536x4096, .f32⟩
  | .hbm, ⟨106, _⟩ => ⟨S4096x1, .f32⟩
  | .hbm, ⟨107, _⟩ => ⟨S65536x1, .f32⟩
  | .hbm, ⟨108, _⟩ => ⟨S1x1, .f32⟩
  | .hbm, ⟨109, _⟩ => ⟨S65536x1, .f32⟩
  | .hbm, ⟨110, _⟩ => ⟨S65536x1, .f32⟩
  | _, _ => ⟨S65536x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_5 : Ref sig .tc := ⟨.hbm, 24, rfl⟩
abbrev main_v15 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_7 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_8 : Ref sig .tc := ⟨.hbm, 35, rfl⟩
abbrev main_v23 : Ref sig .tc := ⟨.hbm, 36, rfl⟩
abbrev main_v24 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_cst_12 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_13 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_14 : Ref sig .tc := ⟨.hbm, 57, rfl⟩
abbrev main_v39 : Ref sig .tc := ⟨.hbm, 58, rfl⟩
abbrev main_v40 : Ref sig .tc := ⟨.hbm, 59, rfl⟩
abbrev main_cst_15 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_16 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_17 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩

abbrev nD : Nat := 1
abbrev τ : Topo := Topo.v7x

variable {F : FTy → Type} [FloatOps F]

class Facts₀ : Prop where
  bcast_S_S65536x4 : S_.BroadcastsInDim S65536x4 (![] : Fin 0 → Fin S65536x4.rank)
  bcast_S65536x4_S65536x4x1_0_1 : S65536x4.BroadcastsInDim S65536x4x1 (![0, 1] : Fin 2 → Fin S65536x4x1.rank)
  concatenates_S65536x4x1_S65536x4x1_S65536x4x1_S65536x4x1_S65536x4x1_S65536x4x1_S65536x4x1_S65536x4x1_S65536x4x8_d2 : Shape.Concatenates [S65536x4x1, S65536x4x1, S65536x4x1, S65536x4x1, S65536x4x1, S65536x4x1, S65536x4x1, S65536x4x1] S65536x4x8 2
  slices_S65536x4x8_S65536x1x8_0_0_0 : S65536x4x8.Slices ![0, 0, 0] S65536x1x8
  shapeCasts_S65536x1x8_S65536x8 : S65536x1x8.ShapeCasts S65536x8
  bcast_S65536x8_S65536x8x1_0_1 : S65536x8.BroadcastsInDim S65536x8x1 (![0, 1] : Fin 2 → Fin S65536x8x1.rank)
  slices_S65536x4x8_S65536x1x8_0_1_0 : S65536x4x8.Slices ![0, 1, 0] S65536x1x8
  bcast_S65536x8_S65536x1x8_0_2 : S65536x8.BroadcastsInDim S65536x1x8 (![0, 2] : Fin 2 → Fin S65536x1x8.rank)
  bcast_S65536x8x1_S65536x8x8_0_1_2 : S65536x8x1.BroadcastsInDim S65536x8x8 (![0, 1, 2] : Fin 3 → Fin S65536x8x8.rank)
  bcast_S65536x1x8_S65536x8x8_0_1_2 : S65536x1x8.BroadcastsInDim S65536x8x8 (![0, 1, 2] : Fin 3 → Fin S65536x8x8.rank)
  shapeCasts_S65536x8x8_S65536x64 : S65536x8x8.ShapeCasts S65536x64
  bcast_S65536x64_S65536x64x1_0_1 : S65536x64.BroadcastsInDim S65536x64x1 (![0, 1] : Fin 2 → Fin S65536x64x1.rank)
  slices_S65536x4x8_S65536x1x8_0_2_0 : S65536x4x8.Slices ![0, 2, 0] S65536x1x8
  bcast_S65536x64x1_S65536x64x8_0_1_2 : S65536x64x1.BroadcastsInDim S65536x64x8 (![0, 1, 2] : Fin 3 → Fin S65536x64x8.rank)
  bcast_S65536x1x8_S65536x64x8_0_1_2 : S65536x1x8.BroadcastsInDim S65536x64x8 (![0, 1, 2] : Fin 3 → Fin S65536x64x8.rank)
  shapeCasts_S65536x64x8_S65536x512 : S65536x64x8.ShapeCasts S65536x512
  bcast_S65536x512_S65536x512x1_0_1 : S65536x512.BroadcastsInDim S65536x512x1 (![0, 1] : Fin 2 → Fin S65536x512x1.rank)
  slices_S65536x4x8_S65536x1x8_0_3_0 : S65536x4x8.Slices ![0, 3, 0] S65536x1x8
  bcast_S65536x512x1_S65536x512x8_0_1_2 : S65536x512x1.BroadcastsInDim S65536x512x8 (![0, 1, 2] : Fin 3 → Fin S65536x512x8.rank)
  bcast_S65536x1x8_S65536x512x8_0_1_2 : S65536x1x8.BroadcastsInDim S65536x512x8 (![0, 1, 2] : Fin 3 → Fin S65536x512x8.rank)
  shapeCasts_S65536x512x8_S65536x4096 : S65536x512x8.ShapeCasts S65536x4096
  transposes_S1x4096_S4096x1_1_0 : S1x4096.Transposes [1, 0] S4096x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  dot_S65536x4096_S4096x1_S65536x1_1_0_0_1_n_n_wf : DotDims.WF S65536x4096 S4096x1 S65536x1 [1] [0] [0] [1] [] []

variable [Facts₀]

def dot_S65536x4096_S4096x1_S65536x1_1_0_0_1_n_n : DotDims S65536x4096 S4096x1 S65536x1 where
  lhsContracting := [1]
  rhsContracting := [0]
  lhsNonContracting := [0]
  rhsNonContracting := [1]
  lhsBatch := []
  rhsBatch := []
  wf := dot_S65536x4096_S4096x1_S65536x1_1_0_0_1_n_n_wf

class Facts : Prop extends Facts₀ where

variable [Facts]
-- ==== Proof.MultiPolySpec.lean ====
/-
  The mathematics of the multivariate Legendre feature map followed by a linear layer, stated once, free of
  either program.

  For a sample (x₀, x₁, x₂, x₃) the features are the 8⁴ = 4096 products P_{i₀}(x₀)·P_{i₁}(x₁)·P_{i₂}(x₂)·P_{i₃}(x₃) of
  Legendre polynomials of degree < 8, feature number f = ((i₀·8 + i₁)·8 + i₂)·8 + i₃, and the result is
  Σ_f feature_f · W_f + b.  The polynomials come from Bonnet's recurrence
  (n+1)·P_{n+1}(x) = (2n+1)·x·P_n(x) − n·P_{n−1}(x), written here with exactly the operations and the operand order
  both programs use, so that each program's arithmetic is this term by unfolding.

  Two arrangements of the contraction are stated: the flat one over all 4096 features (`flatVal`), and the
  factored one (`factoredVal`), which groups (i₀,i₁) into p = i₀·8 + i₁ and (i₂,i₃) into q = i₂·8 + i₃, forms
  C_p = Σ_q W_{p·64+q} · (P_{i₂}(x₂)·P_{i₃}(x₃)) first and then Σ_p (P_{i₀}(x₀)·P_{i₁}(x₁)) · C_p.
  They agree when every factor is a real number (`factoredVal_eq_flatVal`): the step is distributivity of the
  product over the inner sum, which fails at infinities, so finiteness of the inputs is used.
-/
import Idealize.ShloMosaic.PureOps.Ideal
import Idealize.ShloMosaic.PureOps.Ideal.Laws
import Idealize.ShloMosaic.Lib.ValueIdx
import Idealize.ShloMosaic.Lib.IdealHost

noncomputable section

namespace Cert.MultiPoly

open Idealize.ShloMosaic Idealize.ShloMosaic.ValueIdx

/-- An f32 literal read as an extended real. -/
abbrev lit (w : BitVec 32) : EReal := Ideal.ofBits .f32 w

/-! ## Bonnet's recurrence, degree by degree -/

/-- P₀ = 1. -/
def P0 : EReal := lit 0x3F800000#32
/-- P₂(x) = (3·x·x − 1·P₀) / 2. -/
def P2 (x : EReal) : EReal := Ideal.div (lit 0x40400000#32 * x * x - lit 0x3F800000#32 * P0) (lit 0x40000000#32)
/-- P₃(x) = (5·x·P₂ − 2·x) / 3. -/
def P3 (x : EReal) : EReal := Ideal.div (lit 0x40A00000#32 * x * P2 x - lit 0x40000000#32 * x) (lit 0x40400000#32)
/-- P₄(x) = (7·x·P₃ − 3·P₂) / 4. -/
def P4 (x : EReal) : EReal := Ideal.div (lit 0x40E00000#32 * x * P3 x - lit 0x40400000#32 * P2 x) (lit 0x40800000#32)
/-- P₅(x) = (9·x·P₄ − 4·P₃) / 5. -/
def P5 (x : EReal) : EReal := Ideal.div (lit 0x41100000#32 * x * P4 x - lit 0x40800000#32 * P3 x) (lit 0x40A00000#32)
/-- P₆(x) = (11·x·P₅ − 5·P₄) / 6. -/
def P6 (x : EReal) : EReal := Ideal.div (lit 0x41300000#32 * x * P5 x - lit 0x40A00000#32 * P4 x) (lit 0x40C00000#32)
/-- P₇(x) = (13·x·P₆ − 6·P₅) / 7. -/
def P7 (x : EReal) : EReal := Ideal.div (lit 0x41500000#32 * x * P6 x - lit 0x40C00000#32 * P5 x) (lit 0x40E00000#32)

/-- The Legendre polynomial of degree `k < 8` at `x`. -/
def leg (k : Fin 8) (x : EReal) : EReal :=
  match k with
  | ⟨0, _⟩ => P0
  | ⟨1, _⟩ => x
  | ⟨2, _⟩ => P2 x
  | ⟨3, _⟩ => P3 x
  | ⟨4, _⟩ => P4 x
  | ⟨5, _⟩ => P5 x
  | ⟨6, _⟩ => P6 x
  | ⟨7, _⟩ => P7 x
  | ⟨n + 8, h⟩ => absurd h (by omega)

/-! ## Digits of a feature number -/

/-- The leading base-8 digit of `p < 64`. -/
def hi8 (p : Fin 64) : Fin 8 := ⟨p.val / 8, by omega⟩
/-- The trailing base-8 digit of `p < 64`. -/
def lo8 (p : Fin 64) : Fin 8 := ⟨p.val % 8, by omega⟩
/-- Feature number `p·64 + q` of the pair of grouped indices. -/
def join (p q : Fin 64) : Fin 4096 := ⟨p.val * 64 + q.val, by omega⟩
/-- The four base-8 digits of a feature number, most significant first. -/
def dig0 (f : Fin 4096) : Fin 8 := ⟨f.val / 512, by omega⟩
def dig1 (f : Fin 4096) : Fin 8 := ⟨f.val / 64 % 8, by omega⟩
def dig2 (f : Fin 4096) : Fin 8 := ⟨f.val / 8 % 8, by omega⟩
def dig3 (f : Fin 4096) : Fin 8 := ⟨f.val % 8, by omega⟩

/-! ## The two arrangements of the contraction, for one sample -/

/-- Factored: Σ_p (l₀(p/8)·l₁(p%8)) · (Σ_q w p q · (l₂(q/8)·l₃(q%8))) + b. -/
def factoredVal (l0 l1 l2 l3 : Fin 8 → EReal) (w : Fin 64 → Fin 64 → EReal) (b : EReal) : EReal :=
  (∑ p : Fin 64, (l0 (hi8 p) * l1 (lo8 p)) * (∑ q : Fin 64, w p q * (l2 (hi8 q) * l3 (lo8 q)))) + b

/-- Flat: Σ_f (((l₀(f₀)·l₁(f₁))·l₂(f₂))·l₃(f₃)) · w f + b, over the digits f₀ f₁ f₂ f₃ of f. -/
def flatVal (l0 l1 l2 l3 : Fin 8 → EReal) (w : Fin 4096 → EReal) (b : EReal) : EReal :=
  (∑ f : Fin 4096, (((l0 (dig0 f) * l1 (dig1 f)) * l2 (dig2 f)) * l3 (dig3 f)) * w f) + b

/-! ## Whole arrays -/

/-- The result array in the factored arrangement: row `n` from row `n` of `X`, the weights `Wt[0, ·]`, the bias `Bv[0]`. -/
def factoredOut (X : (⟨2, ![65536, 4]⟩ : Shape).Idx → EReal) (Wt : (⟨2, ![1, 4096]⟩ : Shape).Idx → EReal)
    (Bv : (⟨1, ![1]⟩ : Shape).Idx → EReal) : (⟨2, ![65536, 1]⟩ : Shape).Idx → EReal :=
  fun i => factoredVal (fun k => leg k (X (ix2 (i 0) 0))) (fun k => leg k (X (ix2 (i 0) 1)))
    (fun k => leg k (X (ix2 (i 0) 2))) (fun k => leg k (X (ix2 (i 0) 3)))
    (fun p q => Wt (ix2 0 (join p q))) (Bv (ix1 0))

/-- The result array in the flat arrangement. -/
def flatOut (X : (⟨2, ![65536, 4]⟩ : Shape).Idx → EReal) (Wt : (⟨2, ![1, 4096]⟩ : Shape).Idx → EReal)
    (Bv : (⟨1, ![1]⟩ : Shape).Idx → EReal) : (⟨2, ![65536, 1]⟩ : Shape).Idx → EReal :=
  fun i => flatVal (fun k => leg k (X (ix2 (i 0) 0))) (fun k => leg k (X (ix2 (i 0) 1)))
    (fun k => leg k (X (ix2 (i 0) 2))) (fun k => leg k (X (ix2 (i 0) 3)))
    (fun f => Wt (ix2 0 f)) (Bv (ix1 0))

end Cert.MultiPoly

end
-- ==== Proof.MultiPolyLaw.lean ====
/-
  Why the two arrangements of the contraction agree on finite inputs.

  On the extended reals a product does not distribute over a sum when a factor is infinite, so the step
  A_p · (Σ_q W_{pq} · B_q) = Σ_q A_p · W_{pq} · B_q is made in ℝ.  Three facts carry it there:
  every literal of the recurrence is a real number and every divisor is not zero; hence a Legendre value
  of a real argument is real (`leg_real`); a finite sum of reals, read in the extended reals, is the real sum.
  In ℝ the identity is distributivity, then the bijection (p, q) ↦ p·64 + q between pairs of grouped indices
  and feature numbers, under which the digits of p·64 + q are the digits of p followed by those of q.
-/
import proofs.«165331_j79431125172612_1_alg».proof.Proof.MultiPolySpec
import Mathlib.Algebra.BigOperators.Fin
import Mathlib.Algebra.BigOperators.Ring.Finset
import Mathlib.Tactic.Ring
import Mathlib.Tactic.NormNum

noncomputable section

namespace Cert.MultiPoly

open Idealize.ShloMosaic Idealize.ShloMosaic.ValueIdx

/-! ## The literals are the small integers they spell -/

theorem lit_1 : lit 0x3F800000#32 = ((1 : ℝ) : EReal) := by
  simp [lit, Ideal.ofBits, Ideal.ieee, -EReal.coe_mul]; norm_num
theorem lit_2 : lit 0x40000000#32 = ((2 : ℝ) : EReal) := by
  simp [lit, Ideal.ofBits, Ideal.ieee, -EReal.coe_mul]; norm_num
theorem lit_3 : lit 0x40400000#32 = ((3 : ℝ) : EReal) := by
  simp [lit, Ideal.ofBits, Ideal.ieee, -EReal.coe_mul]; norm_num
theorem lit_4 : lit 0x40800000#32 = ((4 : ℝ) : EReal) := by
  simp [lit, Ideal.ofBits, Ideal.ieee, -EReal.coe_mul]; norm_num
theorem lit_5 : lit 0x40A00000#32 = ((5 : ℝ) : EReal) := by
  simp [lit, Ideal.ofBits, Ideal.ieee, -EReal.coe_mul]; norm_num
theorem lit_6 : lit 0x40C00000#32 = ((6 : ℝ) : EReal) := by
  simp [lit, Ideal.ofBits, Ideal.ieee, -EReal.coe_mul]; norm_num
theorem lit_7 : lit 0x40E00000#32 = ((7 : ℝ) : EReal) := by
  simp [lit, Ideal.ofBits, Ideal.ieee, -EReal.coe_mul]; norm_num
theorem lit_9 : lit 0x41100000#32 = ((9 : ℝ) : EReal) := by
  simp [lit, Ideal.ofBits, Ideal.ieee, -EReal.coe_mul]; norm_num
theorem lit_11 : lit 0x41300000#32 = ((11 : ℝ) : EReal) := by
  simp [lit, Ideal.ofBits, Ideal.ieee, -EReal.coe_mul]; norm_num
theorem lit_13 : lit 0x41500000#32 = ((13 : ℝ) : EReal) := by
  simp [lit, Ideal.ofBits, Ideal.ieee, -EReal.coe_mul]; norm_num

/-- A real divided by a real that is not zero is the real quotient. -/
theorem div_real (r c : ℝ) (hc : c ≠ 0) : Ideal.div (r : EReal) (c : EReal) = ((r / c : ℝ) : EReal) := by
  rw [Ideal.div_coe hc, ← EReal.coe_mul]; congr 1; ring

/-! ## Legendre values of a real argument are real -/

/-- The recurrence over ℝ. -/
def p2 (r : ℝ) : ℝ := (3 * r * r - 1 * 1) / 2
def p3 (r : ℝ) : ℝ := (5 * r * p2 r - 2 * r) / 3
def p4 (r : ℝ) : ℝ := (7 * r * p3 r - 3 * p2 r) / 4
def p5 (r : ℝ) : ℝ := (9 * r * p4 r - 4 * p3 r) / 5
def p6 (r : ℝ) : ℝ := (11 * r * p5 r - 5 * p4 r) / 6
def p7 (r : ℝ) : ℝ := (13 * r * p6 r - 6 * p5 r) / 7

theorem P0_coe : P0 = ((1 : ℝ) : EReal) := lit_1

theorem P2_coe (r : ℝ) : P2 (r : EReal) = ((p2 r : ℝ) : EReal) := by
  unfold P2 p2
  rw [P0_coe, lit_3, lit_1, lit_2, ← EReal.coe_mul, ← EReal.coe_mul, ← EReal.coe_mul, ← EReal.coe_sub,
    div_real _ _ (by norm_num)]

theorem P3_coe (r : ℝ) : P3 (r : EReal) = ((p3 r : ℝ) : EReal) := by
  unfold P3 p3
  rw [P2_coe, lit_5, lit_2, lit_3, ← EReal.coe_mul, ← EReal.coe_mul, ← EReal.coe_mul, ← EReal.coe_sub,
    div_real _ _ (by norm_num)]

theorem P4_coe (r : ℝ) : P4 (r : EReal) = ((p4 r : ℝ) : EReal) := by
  unfold P4 p4
  rw [P3_coe, P2_coe, lit_7, lit_3, lit_4, ← EReal.coe_mul, ← EReal.coe_mul, ← EReal.coe_mul, ← EReal.coe_sub,
    div_real _ _ (by norm_num)]

theorem P5_coe (r : ℝ) : P5 (r : EReal) = ((p5 r : ℝ) : EReal) := by
  unfold P5 p5
  rw [P4_coe, P3_coe, lit_9, lit_4, lit_5, ← EReal.coe_mul, ← EReal.coe_mul, ← EReal.coe_mul, ← EReal.coe_sub,
    div_real _ _ (by norm_num)]

theorem P6_coe (r : ℝ) : P6 (r : EReal) = ((p6 r : ℝ) : EReal) := by
  unfold P6 p6
  rw [P5_coe, P4_coe, lit_11, lit_5, lit_6, ← EReal.coe_mul, ← EReal.coe_mul, ← EReal.coe_mul, ← EReal.coe_sub,
    div_real _ _ (by norm_num)]

theorem P7_coe (r : ℝ) : P7 (r : EReal) = ((p7 r : ℝ) : EReal) := by
  unfold P7 p7
  rw [P6_coe, P5_coe, lit_13, lit_6, lit_7, ← EReal.coe_mul, ← EReal.coe_mul, ← EReal.coe_mul, ← EReal.coe_sub,
    div_real _ _ (by norm_num)]

/-- Every Legendre value of a real argument is a real number. -/
theorem leg_real (k : Fin 8) (r : ℝ) : ∃ s : ℝ, leg k (r : EReal) = (s : EReal) := by
  match k with
  | ⟨0, _⟩ => exact ⟨1, P0_coe⟩
  | ⟨1, _⟩ => exact ⟨r, rfl⟩
  | ⟨2, _⟩ => exact ⟨p2 r, P2_coe r⟩
  | ⟨3, _⟩ => exact ⟨p3 r, P3_coe r⟩
  | ⟨4, _⟩ => exact ⟨p4 r, P4_coe r⟩
  | ⟨5, _⟩ => exact ⟨p5 r, P5_coe r⟩
  | ⟨6, _⟩ => exact ⟨p6 r, P6_coe r⟩
  | ⟨7, _⟩ => exact ⟨p7 r, P7_coe r⟩
  | ⟨n + 8, h⟩ => exact absurd h (by omega)

/-! ## Sums of reals -/

/-- A finite sum of reals, read in the extended reals, is the sum of the summands read there. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ## Pairs of grouped indices and feature numbers -/

/-- (p, q) ↦ p·64 + q is a bijection from pairs of grouped indices to feature numbers. -/
def pairEquiv : Fin 64 × Fin 64 ≃ Fin 4096 where
  toFun pq := join pq.1 pq.2
  invFun f := (⟨f.val / 64, by omega⟩, ⟨f.val % 64, by omega⟩)
  left_inv pq := by
    obtain ⟨p, q⟩ := pq
    apply Prod.ext <;> apply Fin.ext <;> simp only [join] <;> omega
  right_inv f := by
    apply Fin.ext; simp only [join]; omega

theorem dig0_join (p q : Fin 64) : dig0 (join p q) = hi8 p := by
  apply Fin.ext; simp only [dig0, join, hi8]; omega
theorem dig1_join (p q : Fin 64) : dig1 (join p q) = lo8 p := by
  apply Fin.ext; simp only [dig1, join, lo8]; omega
theorem dig2_join (p q : Fin 64) : dig2 (join p q) = hi8 q := by
  apply Fin.ext; simp only [dig2, join, hi8]; omega
theorem dig3_join (p q : Fin 64) : dig3 (join p q) = lo8 q := by
  apply Fin.ext; simp only [dig3, join, lo8]; omega

/-- The identity in ℝ: distributivity, then the sum over pairs is the sum over feature numbers. -/
theorem real_law (r0 r1 r2 r3 : Fin 8 → ℝ) (w : Fin 4096 → ℝ) :
    (∑ p : Fin 64, (r0 (hi8 p) * r1 (lo8 p)) * (∑ q : Fin 64, w (join p q) * (r2 (hi8 q) * r3 (lo8 q))))
      = ∑ f : Fin 4096, (((r0 (dig0 f) * r1 (dig1 f)) * r2 (dig2 f)) * r3 (dig3 f)) * w f := by
  rw [← Equiv.sum_comp pairEquiv, Fintype.sum_prod_type]
  refine Finset.sum_congr rfl fun p _ => ?_
  rw [Finset.mul_sum]
  refine Finset.sum_congr rfl fun q _ => ?_
  show _ = (((r0 (dig0 (join p q)) * r1 (dig1 (join p q))) * r2 (dig2 (join p q))) * r3 (dig3 (join p q))) * w (join p q)
  rw [dig0_join, dig1_join, dig2_join, dig3_join]
  ring

/-- **The law.** With every Legendre value and every weight a real number, the factored contraction is the flat one. -/
theorem factoredVal_eq_flatVal (l0 l1 l2 l3 : Fin 8 → EReal) (w : Fin 4096 → EReal) (b : EReal)
    (h0 : ∀ k, ∃ s : ℝ, l0 k = (s : EReal)) (h1 : ∀ k, ∃ s : ℝ, l1 k = (s : EReal))
    (h2 : ∀ k, ∃ s : ℝ, l2 k = (s : EReal)) (h3 : ∀ k, ∃ s : ℝ, l3 k = (s : EReal))
    (hw : ∀ f, ∃ s : ℝ, w f = (s : EReal)) :
    factoredVal l0 l1 l2 l3 (fun p q => w (join p q)) b = flatVal l0 l1 l2 l3 w b := by
  choose r0 hr0 using h0
  choose r1 hr1 using h1
  choose r2 hr2 using h2
  choose r3 hr3 using h3
  choose rw' hrw using hw
  unfold factoredVal flatVal
  congr 1
  have hL : (∑ p : Fin 64, (l0 (hi8 p) * l1 (lo8 p)) * (∑ q : Fin 64, w (join p q) * (l2 (hi8 q) * l3 (lo8 q))))
      = ((∑ p : Fin 64, (r0 (hi8 p) * r1 (lo8 p)) * (∑ q : Fin 64, rw' (join p q) * (r2 (hi8 q) * r3 (lo8 q))) : ℝ) : EReal) := by
    rw [coe_sum]
    refine Finset.sum_congr rfl fun p _ => ?_
    rw [EReal.coe_mul, EReal.coe_mul, coe_sum, hr0, hr1]
    congr 1
    refine Finset.sum_congr rfl fun q _ => ?_
    rw [EReal.coe_mul, EReal.coe_mul, hrw, hr2, hr3]
  have hR : (∑ f : Fin 4096, (((l0 (dig0 f) * l1 (dig1 f)) * l2 (dig2 f)) * l3 (dig3 f)) * w f)
      = ((∑ f : Fin 4096, (((r0 (dig0 f) * r1 (dig1 f)) * r2 (dig2 f)) * r3 (dig3 f)) * rw' f : ℝ) : EReal) := by
    rw [coe_sum]
    refine Finset.sum_congr rfl fun f _ => ?_
    rw [EReal.coe_mul, EReal.coe_mul, EReal.coe_mul, EReal.coe_mul, hr0, hr1, hr2, hr3, hrw]
  rw [hL, hR, real_law]

/-- The same for whole arrays: with every entry of `X` and of `Wt` real, the factored result is the flat one. -/
theorem factoredOut_eq_flatOut (X : (⟨2, ![65536, 4]⟩ : Shape).Idx → EReal) (Wt : (⟨2, ![1, 4096]⟩ : Shape).Idx → EReal)
    (Bv : (⟨1, ![1]⟩ : Shape).Idx → EReal)
    (hX : ∀ i, ∃ r : ℝ, X i = (r : EReal)) (hW : ∀ i, ∃ r : ℝ, Wt i = (r : EReal)) :
    factoredOut X Wt Bv = flatOut X Wt Bv := by
  funext i
  unfold factoredOut flatOut
  have hl : ∀ (d : Fin 4) (k : Fin 8), ∃ s : ℝ, leg k (X (ix2 (i 0) d)) = (s : EReal) := fun d k => by
    obtain ⟨r, hr⟩ := hX (ix2 (i 0) d)
    rw [hr]; exact leg_real k r
  exact factoredVal_eq_flatVal _ _ _ _ (fun f => Wt (ix2 0 f)) _ (hl 0) (hl 1) (hl 2) (hl 3) (fun f => hW _)

end Cert.MultiPoly

end
-- ==== Proof.KernelRow.lean ====
/-
  One row of the kernel's output block.  At a grid point the body holds a block x0 of four coordinate rows
  (x_d at lane j is coordinate d of sample j of the block), the weights as a 64×64 matrix x1 (entry (p, q) is the
  weight of feature p·64 + q) and the bias x2.  What it stores at lane j is the factored contraction of
  `Cert.MultiPoly.factoredVal` over the Legendre values of the four coordinates of sample j.
-/
import proofs.«165331_j79431125172612_1_alg».proof.Proof.Gen.KernelIdeal.Frame
import proofs.«165331_j79431125172612_1_alg».proof.Proof.MultiPolySpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RowValue

open Cert.KernelIdeal Cert.KernelIdeal.Gen Idealize.ShloMosaic Idealize.ShloMosaic.ValueIdx Cert.MultiPoly

/-! ## Bonnet's recurrence on the block, degree by degree

The block `v` holds the four coordinate rows; every degree is computed pointwise on it, with the literals and the operand
order of `Cert.MultiPoly.P2 … P7`. -/

/-- The cast of the loaded block to its own shape is the block. -/
theorem pay1_eq (v : FVec Ideal S4x8192 .f32) : k0_pay1 (F := Ideal) v = v := by
  unfold k0_pay1
  exact shapeCast_self v _

/-- The splat of one is P₀ everywhere. -/
theorem pay2_apply (i : S4x8192.Idx) : (k0_pay2 (F := Ideal)) i = P0 := rfl

/-- Degree 2. -/
theorem pay3_apply (v : FVec Ideal S4x8192 .f32) (i : S4x8192.Idx) : k0_pay3 (F := Ideal) v i = P2 (v i) := by
  unfold k0_pay3
  rw [pay1_eq]
  rfl

/-- Degree 3. -/
theorem pay4_apply (v : FVec Ideal S4x8192 .f32) (i : S4x8192.Idx) : k0_pay4 (F := Ideal) v i = P3 (v i) := by
  unfold k0_pay4
  rw [pay1_eq]
  show Ideal.div (lit 0x40A00000#32 * v i * k0_pay3 (F := Ideal) v i - lit 0x40000000#32 * v i) (lit 0x40400000#32) = _
  rw [pay3_apply]
  rfl

/-- Degree 4. -/
theorem pay5_apply (v : FVec Ideal S4x8192 .f32) (i : S4x8192.Idx) : k0_pay5 (F := Ideal) v i = P4 (v i) := by
  unfold k0_pay5
  rw [pay1_eq]
  show Ideal.div (lit 0x40E00000#32 * v i * k0_pay4 (F := Ideal) v i - lit 0x40400000#32 * k0_pay3 (F := Ideal) v i)
    (lit 0x40800000#32) = _
  rw [pay4_apply, pay3_apply]
  rfl

/-- Degree 5. -/
theorem pay6_apply (v : FVec Ideal S4x8192 .f32) (i : S4x8192.Idx) : k0_pay6 (F := Ideal) v i = P5 (v i) := by
  unfold k0_pay6
  rw [pay1_eq]
  show Ideal.div (lit 0x41100000#32 * v i * k0_pay5 (F := Ideal) v i - lit 0x40800000#32 * k0_pay4 (F := Ideal) v i)
    (lit 0x40A00000#32) = _
  rw [pay5_apply, pay4_apply]
  rfl

/-- The numerator of degree 6: 11·x·P₅ − 5·P₄, before its division by 6. -/
def num6 (x : EReal) : EReal := lit 0x41300000#32 * x * P5 x - lit 0x40A00000#32 * P4 x

/-- The numerator of degree 6 on the block. -/
theorem pay7_apply (v : FVec Ideal S4x8192 .f32) (i : S4x8192.Idx) : k0_pay7 (F := Ideal) v i = num6 (v i) := by
  unfold k0_pay7
  rw [pay1_eq]
  show lit 0x41300000#32 * v i * k0_pay6 (F := Ideal) v i - lit 0x40A00000#32 * k0_pay5 (F := Ideal) v i = _
  rw [pay6_apply, pay5_apply]
  rfl

/-- Degree 6: the numerator divided by 6. -/
theorem pay8_apply (v : FVec Ideal S4x8192 .f32) (i : S4x8192.Idx) :
    k0_pay8 (F := Ideal) (k0_pay7 v) (Scalar.ofBits .f32 0x40C00000#32) i = P6 (v i) := by
  unfold k0_pay8
  show Ideal.div (k0_pay7 (F := Ideal) v i) (lit 0x40C00000#32) = _
  rw [pay7_apply]
  rfl

/-- Degree 7. -/
theorem pay9_apply (v : FVec Ideal S4x8192 .f32) (i : S4x8192.Idx) :
    k0_pay9 (F := Ideal) (k0_pay1 v) (k0_pay6 v) (k0_pay7 v) (Scalar.ofBits .f32 0x40C00000#32) i = P7 (v i) := by
  unfold k0_pay9
  rw [pay1_eq]
  show Ideal.div (lit 0x41500000#32 * v i * k0_pay8 (F := Ideal) (k0_pay7 v) (Scalar.ofBits .f32 0x40C00000#32) i
    - lit 0x40C00000#32 * k0_pay6 (F := Ideal) v i) (lit 0x40E00000#32) = _
  rw [pay8_apply, pay6_apply]
  rfl

/-! ## Stacks of rows read at an index -/

/-- Row `o` of each of eight 4×8192 blocks, stacked along axis 0: row `k` of the stack at lane `j` is block `k` at `(o, j)`. -/
theorem rows8_apply {α : Type} (o : Nat) (h : S4x8192.Slices ![o, 0] S1x8192)
    (hc : Shape.Concatenates [S1x8192, S1x8192, S1x8192, S1x8192, S1x8192, S1x8192, S1x8192, S1x8192] S8x8192 0)
    (u : Fin 8 → (S4x8192.Idx → α)) (r : Fin 4) (hr : r.val = o) (k : Fin 8) (j : Fin 8192) :
    concatenate S8x8192 0 [⟨S1x8192, extractStridedSlice S1x8192 ![o, 0] (u 0) h⟩, ⟨S1x8192, extractStridedSlice S1x8192 ![o, 0] (u 1) h⟩,
        ⟨S1x8192, extractStridedSlice S1x8192 ![o, 0] (u 2) h⟩, ⟨S1x8192, extractStridedSlice S1x8192 ![o, 0] (u 3) h⟩,
        ⟨S1x8192, extractStridedSlice S1x8192 ![o, 0] (u 4) h⟩, ⟨S1x8192, extractStridedSlice S1x8192 ![o, 0] (u 5) h⟩,
        ⟨S1x8192, extractStridedSlice S1x8192 ![o, 0] (u 6) h⟩, ⟨S1x8192, extractStridedSlice S1x8192 ![o, 0] (u 7) h⟩] hc (ix2 k j)
      = u k (ix2 r j) := by
  refine (concatenate_ofFn_unit_apply (t := S8x8192) (s₁ := S1x8192) 0
    (fun n : Fin 8 => extractStridedSlice S1x8192 ![o, 0] (u n) h) hc rfl rfl (ix2 k j) k rfl (ix2 (0 : Fin 1) j) (fun b hb => ?_)).trans ?_
  · match b with
    | ⟨0, _⟩ => exact absurd rfl hb
    | ⟨1, _⟩ => rfl
  · exact slice2_axis0_apply o (u k) h 0 j r (by rw [hr]; rfl)

/-- Row `i` of an 8×8192 matrix `L` broadcast over eight rows and multiplied into `M`, for `i = 0 … 7`, stacked along
    axis 0: row `p = i·8 + i'` of the stack at lane `j` is `L (i, j) · M (i', j)`. -/
theorem outer_apply (L M : FVec Ideal S8x8192 .f32)
    (h0 : S8x8192.Slices ![0, 0] S1x8192) (h1 : S8x8192.Slices ![1, 0] S1x8192) (h2 : S8x8192.Slices ![2, 0] S1x8192)
    (h3 : S8x8192.Slices ![3, 0] S1x8192) (h4 : S8x8192.Slices ![4, 0] S1x8192) (h5 : S8x8192.Slices ![5, 0] S1x8192)
    (h6 : S8x8192.Slices ![6, 0] S1x8192) (h7 : S8x8192.Slices ![7, 0] S1x8192) (hb : S1x8192.Broadcasts S8x8192)
    (hc : Shape.Concatenates [S8x8192, S8x8192, S8x8192, S8x8192, S8x8192, S8x8192, S8x8192, S8x8192] S64x8192 0)
    (p : Fin 64) (j : Fin 8192) :
    concatenate S64x8192 0 [⟨S8x8192, mulf (broadcastTo S8x8192 (extractStridedSlice S1x8192 ![0, 0] L h0) hb) M⟩,
        ⟨S8x8192, mulf (broadcastTo S8x8192 (extractStridedSlice S1x8192 ![1, 0] L h1) hb) M⟩,
        ⟨S8x8192, mulf (broadcastTo S8x8192 (extractStridedSlice S1x8192 ![2, 0] L h2) hb) M⟩,
        ⟨S8x8192, mulf (broadcastTo S8x8192 (extractStridedSlice S1x8192 ![3, 0] L h3) hb) M⟩,
        ⟨S8x8192, mulf (broadcastTo S8x8192 (extractStridedSlice S1x8192 ![4, 0] L h4) hb) M⟩,
        ⟨S8x8192, mulf (broadcastTo S8x8192 (extractStridedSlice S1x8192 ![5, 0] L h5) hb) M⟩,
        ⟨S8x8192, mulf (broadcastTo S8x8192 (extractStridedSlice S1x8192 ![6, 0] L h6) hb) M⟩,
        ⟨S8x8192, mulf (broadcastTo S8x8192 (extractStridedSlice S1x8192 ![7, 0] L h7) hb) M⟩] hc (ix2 p j)
      = L (ix2 (hi8 p) j) * M (ix2 (lo8 p) j) := by
  have hs : ∀ n : Fin 8, S8x8192.Slices ![n.val, 0] S1x8192 := fun n =>
    match n with
    | ⟨0, _⟩ => h0 | ⟨1, _⟩ => h1 | ⟨2, _⟩ => h2 | ⟨3, _⟩ => h3
    | ⟨4, _⟩ => h4 | ⟨5, _⟩ => h5 | ⟨6, _⟩ => h6 | ⟨7, _⟩ => h7
  refine (concatenate_ofFn_apply (t := S64x8192) (s₁ := S8x8192) 0
    (fun n : Fin 8 => mulf (broadcastTo S8x8192 (extractStridedSlice S1x8192 ![n.val, 0] L (hs n)) hb) M)
    hc rfl 8 rfl (ix2 p j) (hi8 p) rfl (ix2 (lo8 p) j) rfl (fun b hb' => ?_)).trans ?_
  · match b with
    | ⟨0, _⟩ => exact absurd rfl hb'
    | ⟨1, _⟩ => rfl
  · refine (mulf_apply _ _ _).trans ?_
    refine congrArg (· * M (ix2 (lo8 p) j)) ?_
    refine (broadcastTo_1b_ab_apply _ hb (lo8 p) j).trans ?_
    exact slice2_axis0_apply (hi8 p).val L (hs (hi8 p)) 0 j (hi8 p) rfl

/-! ## The Legendre matrix of one coordinate row -/

/-- Row `r` of the eight degrees, stacked: row `k` of the stack at lane `j` is `leg k` of coordinate `r` of sample `j`. -/
theorem legs_apply (o : Nat) (h : S4x8192.Slices ![o, 0] S1x8192)
    (hc : Shape.Concatenates [S1x8192, S1x8192, S1x8192, S1x8192, S1x8192, S1x8192, S1x8192, S1x8192] S8x8192 0)
    (v : FVec Ideal S4x8192 .f32) (r : Fin 4) (hr : r.val = o) (k : Fin 8) (j : Fin 8192) :
    concatenate S8x8192 0 [⟨S1x8192, extractStridedSlice S1x8192 ![o, 0] (k0_pay2 (F := Ideal)) h⟩,
        ⟨S1x8192, extractStridedSlice S1x8192 ![o, 0] (k0_pay1 v) h⟩,
        ⟨S1x8192, extractStridedSlice S1x8192 ![o, 0] (k0_pay3 v) h⟩,
        ⟨S1x8192, extractStridedSlice S1x8192 ![o, 0] (k0_pay4 v) h⟩,
        ⟨S1x8192, extractStridedSlice S1x8192 ![o, 0] (k0_pay5 v) h⟩,
        ⟨S1x8192, extractStridedSlice S1x8192 ![o, 0] (k0_pay6 v) h⟩,
        ⟨S1x8192, extractStridedSlice S1x8192 ![o, 0] (k0_pay8 (k0_pay7 v) (Scalar.ofBits .f32 0x40C00000#32)) h⟩,
        ⟨S1x8192, extractStridedSlice S1x8192 ![o, 0] (k0_pay9 (k0_pay1 v) (k0_pay6 v) (k0_pay7 v) (Scalar.ofBits .f32 0x40C00000#32)) h⟩] hc (ix2 k j)
      = leg k (v (ix2 r j)) := by
  refine (rows8_apply o h hc (fun n : Fin 8 => match n with
    | ⟨0, _⟩ => (k0_pay2 (F := Ideal))
    | ⟨1, _⟩ => (k0_pay1 v)
    | ⟨2, _⟩ => (k0_pay3 v)
    | ⟨3, _⟩ => (k0_pay4 v)
    | ⟨4, _⟩ => (k0_pay5 v)
    | ⟨5, _⟩ => (k0_pay6 v)
    | ⟨6, _⟩ => (k0_pay8 (k0_pay7 v) (Scalar.ofBits .f32 0x40C00000#32))
    | ⟨7, _⟩ => (k0_pay9 (k0_pay1 v) (k0_pay6 v) (k0_pay7 v) (Scalar.ofBits .f32 0x40C00000#32))) r hr k j).trans ?_
  match k with
  | ⟨0, _⟩ => exact pay2_apply _
  | ⟨1, _⟩ => exact congrFun (pay1_eq v) _
  | ⟨2, _⟩ => exact pay3_apply v _
  | ⟨3, _⟩ => exact pay4_apply v _
  | ⟨4, _⟩ => exact pay5_apply v _
  | ⟨5, _⟩ => exact pay6_apply v _
  | ⟨6, _⟩ => exact pay8_apply v _
  | ⟨7, _⟩ => exact pay9_apply v _

/-- The Legendre matrix of coordinate 0. -/
theorem pay10_apply (v : FVec Ideal S4x8192 .f32) (k : Fin 8) (j : Fin 8192) :
    k0_pay10 (F := Ideal) (k0_pay1 v) (k0_pay2 (F := Ideal)) (k0_pay3 v) (k0_pay4 v) (k0_pay5 v) (k0_pay6 v) (k0_pay7 v) (Scalar.ofBits .f32 0x40C00000#32) (ix2 k j) = leg k (v (ix2 (0 : Fin 4) j)) := by
  unfold k0_pay10
  exact legs_apply 0 _ _ v 0 rfl k j

/-- The Legendre matrix of coordinate 1. -/
theorem pay11_apply (v : FVec Ideal S4x8192 .f32) (k : Fin 8) (j : Fin 8192) :
    k0_pay11 (F := Ideal) (k0_pay1 v) (k0_pay2 (F := Ideal)) (k0_pay3 v) (k0_pay4 v) (k0_pay5 v) (k0_pay6 v) (k0_pay7 v) (Scalar.ofBits .f32 0x40C00000#32) (ix2 k j) = leg k (v (ix2 (1 : Fin 4) j)) := by
  unfold k0_pay11
  exact legs_apply 1 _ _ v 1 rfl k j

/-- The Legendre matrix of coordinate 2. -/
theorem pay12_apply (v : FVec Ideal S4x8192 .f32) (k : Fin 8) (j : Fin 8192) :
    k0_pay12 (F := Ideal) (k0_pay1 v) (k0_pay2 (F := Ideal)) (k0_pay3 v) (k0_pay4 v) (k0_pay5 v) (k0_pay6 v) (k0_pay7 v) (Scalar.ofBits .f32 0x40C00000#32) (ix2 k j) = leg k (v (ix2 (2 : Fin 4) j)) := by
  unfold k0_pay12
  exact legs_apply 2 _ _ v 2 rfl k j

/-- The Legendre matrix of coordinate 3. -/
theorem pay13_apply (v : FVec Ideal S4x8192 .f32) (k : Fin 8) (j : Fin 8192) :
    k0_pay13 (F := Ideal) (k0_pay1 v) (k0_pay2 (F := Ideal)) (k0_pay3 v) (k0_pay4 v) (k0_pay5 v) (k0_pay6 v) (k0_pay7 v) (Scalar.ofBits .f32 0x40C00000#32) (ix2 k j) = leg k (v (ix2 (3 : Fin 4) j)) := by
  unfold k0_pay13
  exact legs_apply 3 _ _ v 3 rfl k j

/-! ## The contraction of the weights with the second factor -/

/-- The weight operand's row at output `(p, j)` is `p`. -/
theorem wIdx_row (i : S64x8192.Idx) (q : dot_S64x64_S64x8192_S64x8192_1_0_0_1_n_n.contr.Idx) :
    (dot_S64x64_S64x8192_S64x8192_1_0_0_1_n_n.lhsIdx i q 0).val = (i 0).val := by
  unfold DotDims.lhsIdx
  rw [dif_neg (show ¬(0 : Fin S64x64.rank) ∈ dot_S64x64_S64x8192_S64x8192_1_0_0_1_n_n.lhsBatch by decide), dif_pos (show (0 : Fin S64x64.rank) ∈ dot_S64x64_S64x8192_S64x8192_1_0_0_1_n_n.lhsNonContracting by decide)]
  rfl
/-- The weight operand's column is the contraction index. -/
theorem wIdx_col (i : S64x8192.Idx) (q : dot_S64x64_S64x8192_S64x8192_1_0_0_1_n_n.contr.Idx) :
    (dot_S64x64_S64x8192_S64x8192_1_0_0_1_n_n.lhsIdx i q 1).val = (q ⟨0, by decide⟩).val :=
  dot_S64x64_S64x8192_S64x8192_1_0_0_1_n_n.lhsIdx_val_of_single rfl i q
/-- The second operand's row is the contraction index. -/
theorem bIdx_row (i : S64x8192.Idx) (q : dot_S64x64_S64x8192_S64x8192_1_0_0_1_n_n.contr.Idx) :
    (dot_S64x64_S64x8192_S64x8192_1_0_0_1_n_n.rhsIdx i q 0).val = (q ⟨0, by decide⟩).val :=
  dot_S64x64_S64x8192_S64x8192_1_0_0_1_n_n.rhsIdx_val_of_single rfl i q
/-- The second operand's lane at output `(p, j)` is `j`. -/
theorem bIdx_lane (i : S64x8192.Idx) (q : dot_S64x64_S64x8192_S64x8192_1_0_0_1_n_n.contr.Idx) :
    (dot_S64x64_S64x8192_S64x8192_1_0_0_1_n_n.rhsIdx i q 1).val = (i 1).val := by
  unfold DotDims.rhsIdx
  rw [dif_neg (show ¬(1 : Fin S64x8192.rank) ∈ dot_S64x64_S64x8192_S64x8192_1_0_0_1_n_n.rhsBatch by decide), dif_pos (show (1 : Fin S64x8192.rank) ∈ dot_S64x64_S64x8192_S64x8192_1_0_0_1_n_n.rhsNonContracting by decide)]
  rfl

/-- The product of a 64×64 matrix with a 64×8192 one into the zero accumulator, at `(p, j)`: `Σ_q W (p, q) · B (q, j)`. -/
theorem contraction_apply (W : FVec Ideal S64x64 .bf16) (B : FVec Ideal S64x8192 .bf16) (p : Fin 64) (j : Fin 8192) :
    matmul dot_S64x64_S64x8192_S64x8192_1_0_0_1_n_n none W B (constant (F := Ideal) S64x8192 .f32 0x00000000#32) (ix2 p j)
      = ∑ q : Fin 64, W (ix2 p q) * B (ix2 q j) := by
  simp only [matmul]
  rw [Ideal.matmul_constant_zero_apply, ← Equiv.sum_comp (contrEquiv1 dot_S64x64_S64x8192_S64x8192_1_0_0_1_n_n 64 rfl rfl).symm]
  refine Finset.sum_congr rfl fun q _ => ?_
  have hq := contrEquiv1_symm_val dot_S64x64_S64x8192_S64x8192_1_0_0_1_n_n 64 rfl rfl q
  have el : dot_S64x64_S64x8192_S64x8192_1_0_0_1_n_n.lhsIdx (ix2 p j) ((contrEquiv1 dot_S64x64_S64x8192_S64x8192_1_0_0_1_n_n 64 rfl rfl).symm q) = ix2 p q := funext fun a => Fin.ext (by
    match a with
    | ⟨0, _⟩ => exact wIdx_row _ _
    | ⟨1, _⟩ => exact (wIdx_col _ _).trans hq)
  have er : dot_S64x64_S64x8192_S64x8192_1_0_0_1_n_n.rhsIdx (ix2 p j) ((contrEquiv1 dot_S64x64_S64x8192_S64x8192_1_0_0_1_n_n 64 rfl rfl).symm q) = ix2 q j := funext fun a => Fin.ext (by
    match a with
    | ⟨0, _⟩ => exact (bIdx_row _ _).trans hq
    | ⟨1, _⟩ => exact bIdx_lane _ _)
  rw [el, er]

/-! ## The sum over the 64 rows, and the bias -/

/-- The sum over axis 0 of a 64×8192 matrix, at lane `j`: `Σ_p src (p, j)`. -/
theorem laneSum_apply (src : FVec Ideal S64x8192 .f32) (h : S64x8192.Reduces [0] S8192) (hφ : FKind.Formats .f32)
    (hacc : (0x00000000#32 : BitVec 32) = FKind.add.neutral .f32 hφ) (j : Fin 8192) :
    multiReduction (F := Ideal) .add [0] S8192 src 0x00000000#32 h hφ hacc (ix1 j) = ∑ p : Fin 64, src (ix2 p j) := by
  refine (Ideal.multiReduction_add_single src _ h hφ hacc (ix1 j)).trans ?_
  refine Finset.sum_congr rfl fun p _ => congrArg src ?_
  funext a
  refine Fin.ext ?_
  match a with
  | ⟨0, _⟩ => rfl
  | ⟨1, _⟩ => rfl

/-- The 1×1 bias broadcast along the lanes reads its one element everywhere. -/
theorem bias_apply (b : FVec Ideal S1x1 .f32) (hs : S1x1.ShapeCasts S1x1) (hb : S1x1.Broadcasts S1x8192) (j : Fin 8192) :
    broadcastTo S1x8192 (shapeCast S1x1 b hs) hb (ix2 (0 : Fin 1) j) = b (ix2 (0 : Fin 1) (0 : Fin 1)) := by
  rw [shapeCast_self]
  refine broadcastTo_apply b hb _ (ix2 (0 : Fin 1) (0 : Fin 1)) fun a => ?_
  match a with
  | ⟨0, _⟩ => rfl
  | ⟨1, _⟩ => rfl

/-! ## The stored row from the four Legendre matrices -/

/-- With `L0 … L3` the four 8×8192 matrices, `w` the weights and `b` the bias, lane `j` of the stored row is
    `Σ_p (L0 (p/8, j) · L1 (p%8, j)) · (Σ_q w (p, q) · (L2 (q/8, j) · L3 (q%8, j))) + b`: the stack of row products, the
    contraction with the weights, the pointwise product, the sum over the 64 rows and the bias, each read at its index. -/
theorem pay18_apply (L0 L1 L2 L3 : FVec Ideal S8x8192 .f32) (w : FVec Ideal S64x64 .f32) (b : FVec Ideal S1x1 .f32) (j : Fin 8192) :
    k0_pay18 (F := Ideal) L0 L1 L2 L3
        (mulf (broadcastTo S8x8192 (extractStridedSlice S1x8192 ![0, 0] L0 slices_S8x8192_o0_0_S1x8192) broadcasts_S1x8192_S8x8192) L1)
        (mulf (broadcastTo S8x8192 (extractStridedSlice S1x8192 ![1, 0] L0 slices_S8x8192_o1_0_S1x8192) broadcasts_S1x8192_S8x8192) L1)
        (mulf (broadcastTo S8x8192 (extractStridedSlice S1x8192 ![2, 0] L0 slices_S8x8192_o2_0_S1x8192) broadcasts_S1x8192_S8x8192) L1)
        (broadcastTo S8x8192 (extractStridedSlice S1x8192 ![3, 0] L0 slices_S8x8192_o3_0_S1x8192) broadcasts_S1x8192_S8x8192)
        w b (ix2 (0 : Fin 1) j)
      = (∑ p : Fin 64, (L0 (ix2 (hi8 p) j) * L1 (ix2 (lo8 p) j))
          * (∑ q : Fin 64, w (ix2 p q) * (L2 (ix2 (hi8 q) j) * L3 (ix2 (lo8 q) j))))
        + b (ix2 (0 : Fin 1) (0 : Fin 1)) := by
  unfold k0_pay18
  refine (addf_apply _ _ _).trans ?_
  refine congrArg₂ (fun s t : EReal => s + t) ?_ (bias_apply b _ _ j)
  refine (shapeCast_a_1a_apply _ _ 0 j).trans ?_
  refine (laneSum_apply _ _ _ _ j).trans ?_
  refine Finset.sum_congr rfl fun p _ => ?_
  refine (mulf_apply _ _ _).trans ?_
  refine congrArg₂ (fun s t : EReal => s * t) (outer_apply L0 L1 _ _ _ _ _ _ _ _ _ _ p j) ?_
  refine (contraction_apply _ _ p j).trans ?_
  refine Finset.sum_congr rfl fun q _ => ?_
  exact congrArg₂ (fun s t : EReal => s * t)
    ((truncf_apply (ψ := .bf16) _ bitsLt_bf16_f32 (ix2 p q)).trans (congrFun (shapeCast_self w _) _))
    ((truncf_apply (ψ := .bf16) _ bitsLt_bf16_f32 (ix2 q j)).trans (outer_apply L2 L3 _ _ _ _ _ _ _ _ _ _ q j))

/-! ## The block the body stores -/

/-- The offsets of a whole-block rectangle are zero. -/
theorem off_zero : (![0, 0] : Fin 2 → Nat) = fun _ => 0 :=
  funext fun a => match a with | ⟨0, _⟩ => rfl | ⟨1, _⟩ => rfl

/-- Lane `j` of the block the body stores. -/
theorem out_row (x0 : Vec Ideal S4x8192 .f32) (x1 : Vec Ideal S64x64 .f32) (x2 : Vec Ideal S1x1 .f32) (j : Fin 8192) :
    out0_3 (F := Ideal) x0 x1 x2 (ix2 (0 : Fin 1) j)
      = factoredVal (fun k => leg k (x0 (ix2 (0 : Fin 4) j))) (fun k => leg k (x0 (ix2 (1 : Fin 4) j)))
          (fun k => leg k (x0 (ix2 (2 : Fin 4) j))) (fun k => leg k (x0 (ix2 (3 : Fin 4) j)))
          (fun p q => x1 (ix2 p q)) (x2 (ix2 (0 : Fin 1) (0 : Fin 1))) := by
  unfold out0_3
  rw [View.canon_unit_zero off_zero]
  simp only [View.ld_unit_zero (S := S4x8192) off_zero, View.ld_unit_zero (S := S64x64) off_zero,
    View.ld_unit_zero (S := S1x1) off_zero]
  refine (pay18_apply _ _ _ _ x1 x2 j).trans ?_
  unfold factoredVal
  refine congrArg (fun s : EReal => s + x2 (ix2 (0 : Fin 1) (0 : Fin 1))) ?_
  refine Finset.sum_congr rfl fun p _ => ?_
  refine congrArg₂ (fun s t : EReal => s * t)
    (congrArg₂ (fun s t : EReal => s * t) (pay10_apply x0 _ j) (pay11_apply x0 _ j)) ?_
  refine Finset.sum_congr rfl fun q _ => ?_
  exact congrArg (fun s : EReal => x1 (ix2 p q) * s)
    (congrArg₂ (fun s t : EReal => s * t) (pay12_apply x0 _ j) (pay13_apply x0 _ j))

end Cert.KernelIdeal.RowValue

end
-- ==== Proof.KernelArray.lean ====
/-
  From blocks to the whole result.  The region's grid has 8 points; point t stages columns [8192·t, 8192·(t+1)) of
  the transposed input (4 × 65536), the whole 64 × 64 weight matrix and the 1 × 1 bias, and writes back columns
  [8192·t, 8192·(t+1)) of the 1 × 65536 result.  Before the region the host transposes x, reshapes W (row-major:
  entry (p, q) is W[0, p·64 + q]) and reshapes b; after it the host transposes the 1 × 65536 row into the
  65536 × 1 column.  So entry (n, 0) of the result is the factored contraction for sample n.
-/
import proofs.«165331_j79431125172612_1_alg».proof.Proof.Gen.KernelIdeal.Frame
import proofs.«165331_j79431125172612_1_alg».proof.Proof.MultiPolySpec
import proofs.«165331_j79431125172612_1_alg».proof.Proof.KernelRow
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Cert.MultiPoly

/-! ## The arrays the region finds -/

section Blocks

variable (m : (ℓ : Loc nD τ sig) → Buf (Elt Ideal) ℓ)

/-- The three argument arrays as launched, at their literal shapes. -/
abbrev argX (c : Dev nD) : S65536x4.Idx → EReal := m ((c.tc : Thread nD τ).loc main_arg0)
abbrev argW (c : Dev nD) : S1x4096.Idx → EReal := m ((c.tc : Thread nD τ).loc main_arg1)
abbrev argB (c : Dev nD) : S1.Idx → EReal := m ((c.tc : Thread nD τ).loc main_arg2)

/-- The three arrays the region stages, as it finds them. -/
abbrev inX (c : Dev nD) : S4x65536.Idx → EReal := V m c main_v0
abbrev inW (c : Dev nD) : S64x64.Idx → EReal := V m c main_v1
abbrev inB (c : Dev nD) : S1x1.Idx → EReal := V m c main_v2

/-- Row d, column n of the transposed input is coordinate d of sample n. -/
theorem inX_apply (c : Dev nD) (d : Fin 4) (n : Fin 65536) : inX m c (ix2 d n) = argX m c (ix2 n d) := by
  have e : inX m c = transpose S4x65536 [1, 0] (argX m c) Facts₀.transposes_S65536x4_S4x65536_1_0 := by
    show StableHlo.after hostOps0 (fun b => m (c, b)) (Proc.devRef .tc main_v0) = _
    after_results
  rw [e]
  exact transpose_ix2_apply (argX m c) _ d n

/-- Entry (p, q) of the weight matrix is weight p·64 + q of the flat weight row: the reshape keeps row-major positions. -/
theorem inW_apply (c : Dev nD) (p q : Fin 64) : inW m c (ix2 p q) = argW m c (ix2 (0 : Fin 1) (join p q)) := by
  have e : inW m c = shapeCast S64x64 (argW m c) Facts₀.shapeCasts_S1x4096_S64x64 := by
    show StableHlo.after hostOps0 (fun b => m (c, b)) (Proc.devRef .tc main_v1) = _
    after_results
    rfl
  rw [e]
  refine shapeCast_apply (s := S1x4096) (t := S64x64) (argW m c) _ (ix2 p q) (ix2 (0 : Fin 1) (join p q)) ?_
  rw [Shape.rowMajor_val_two, Shape.rowMajor_val_two]
  show (0 : Nat) * 4096 + (p.val * 64 + q.val) = p.val * 64 + q.val
  omega

/-- The 1 × 1 bias block's entry is the bias. -/
theorem inB_apply (c : Dev nD) : inB m c (ix2 (0 : Fin 1) (0 : Fin 1)) = argB m c (ix1 (0 : Fin 1)) := by
  have e : inB m c = shapeCast S1x1 (argB m c) Facts₀.shapeCasts_S1_S1x1 := by
    show StableHlo.after hostOps0 (fun b => m (c, b)) (Proc.devRef .tc main_v2) = _
    after_results
    rfl
  rw [e]
  refine shapeCast_apply (s := S1) (t := S1x1) (argB m c) _ (ix2 (0 : Fin 1) (0 : Fin 1)) (ix1 (0 : Fin 1)) ?_
  rw [Shape.rowMajor_val_two, Shape.rowMajor_val_one]
  rfl

/-! ## The windows' blocks at a point -/

/-- The windows' index maps over the grid: the sample-column windows sit at block (0, t), the weight and bias windows at (0, 0). -/
theorem index_facts : ∀ t : Fin cfg0.N, win0_0.index t (0 : Fin 2) = 0 ∧ win0_0.index t (1 : Fin 2) = t.val
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val :=
  (by decide +kernel : ∀ t : Fin grid0.N, _)

/-- The three input blocks at point t, at their literal shapes. -/
abbrev blkX (c : Dev nD) (t : Fin cfg0.N) : Vec Ideal S4x8192 .f32 := iblk m c 0 t
abbrev blkW (c : Dev nD) (t : Fin cfg0.N) : Vec Ideal S64x64 .f32 := iblk m c 1 t
abbrev blkB (c : Dev nD) (t : Fin cfg0.N) : Vec Ideal S1x1 .f32 := iblk m c 2 t

/-- Lane j of row d of the coordinate block at point t is sample 8192·t + j of coordinate row d. -/
theorem blkX_apply (c : Dev nD) (t : Fin cfg0.N) (d : Fin 4) (j : Fin 8192) (n : Fin 65536) (hn : n.val = 8192 * t.val + j.val) :
    blkX m c t (ix2 d j) = inX m c (ix2 d n) := by
  obtain ⟨e0, e1, -⟩ := index_facts t
  show V m c main_v0 (((cfg0.win 0).blk t).view.emb (ix2 d j)) = V m c main_v0 (ix2 d n)
  refine congrArg (V m c main_v0) (funext fun a => Fin.ext ?_)
  match a with
  | ⟨0, _⟩ => show win0_0.index t (0 : Fin 2) * 4 + 1 * d.val = d.val; omega
  | ⟨1, _⟩ => show win0_0.index t (1 : Fin 2) * 8192 + 1 * j.val = n.val; omega

/-- The weight block is the whole weight matrix at every point. -/
theorem blkW_apply (c : Dev nD) (t : Fin cfg0.N) (p q : Fin 64) : blkW m c t (ix2 p q) = inW m c (ix2 p q) := by
  obtain ⟨-, -, e0, e1, -⟩ := index_facts t
  show V m c main_v1 (((cfg0.win 1).blk t).view.emb (ix2 p q)) = V m c main_v1 (ix2 p q)
  refine congrArg (V m c main_v1) (funext fun a => Fin.ext ?_)
  match a with
  | ⟨0, _⟩ => show win0_1.index t (0 : Fin 2) * 64 + 1 * p.val = p.val; omega
  | ⟨1, _⟩ => show win0_1.index t (1 : Fin 2) * 64 + 1 * q.val = q.val; omega

/-- The bias block is the bias at every point. -/
theorem blkB_apply (c : Dev nD) (t : Fin cfg0.N) : blkB m c t (ix2 (0 : Fin 1) (0 : Fin 1)) = inB m c (ix2 (0 : Fin 1) (0 : Fin 1)) := by
  obtain ⟨-, -, -, -, e0, e1, -⟩ := index_facts t
  show V m c main_v2 (((cfg0.win 2).blk t).view.emb (ix2 (0 : Fin 1) (0 : Fin 1))) = V m c main_v2 (ix2 (0 : Fin 1) (0 : Fin 1))
  refine congrArg (V m c main_v2) (funext fun a => Fin.ext ?_)
  match a with
  | ⟨0, _⟩ => show win0_2.index t (0 : Fin 2) * 1 + 1 * (0 : Nat) = 0; omega
  | ⟨1, _⟩ => show win0_2.index t (1 : Fin 2) * 1 + 1 * (0 : Nat) = 0; omega

/-! ## What a point writes back -/

/-- The factored contraction for sample n of the argument arrays. -/
def sampleVal (c : Dev nD) (n : Fin 65536) : EReal :=
  factoredVal (fun k => leg k (argX m c (ix2 n (0 : Fin 4)))) (fun k => leg k (argX m c (ix2 n (1 : Fin 4))))
    (fun k => leg k (argX m c (ix2 n (2 : Fin 4)))) (fun k => leg k (argX m c (ix2 n (3 : Fin 4))))
    (fun p q => argW m c (ix2 (0 : Fin 1) (join p q))) (argB m c (ix1 (0 : Fin 1)))

/-- The 1 × 65536 row the region leaves: entry (0, n) is the factored contraction for sample n. -/
def rowOut (c : Dev nD) : S1x65536.Idx → EReal := fun i => sampleVal m c (i 1)

/-- Lane j of what the body stores at point t is the factored contraction for sample 8192·t + j. -/
theorem stored_lane (c : Dev nD) (t : Fin cfg0.N) (j : Fin 8192) (n : Fin 65536) (hn : n.val = 8192 * t.val + j.val) :
    out0_3 (F := Ideal) (blkX m c t) (blkW m c t) (blkB m c t) (ix2 (0 : Fin 1) j) = sampleVal m c n := by
  refine (RowValue.out_row (blkX m c t) (blkW m c t) (blkB m c t) j).trans ?_
  have hX : ∀ d : Fin 4, blkX m c t (ix2 d j) = argX m c (ix2 n d) := fun d =>
    (blkX_apply m c t d j n hn).trans (inX_apply m c d n)
  have hW : (fun p q : Fin 64 => blkW m c t (ix2 p q)) = fun p q => argW m c (ix2 (0 : Fin 1) (join p q)) :=
    funext fun p => funext fun q => (blkW_apply m c t p q).trans (inW_apply m c p q)
  have hB : blkB m c t (ix2 (0 : Fin 1) (0 : Fin 1)) = argB m c (ix1 (0 : Fin 1)) := (blkB_apply m c t).trans (inB_apply m c)
  rw [hX 0, hX 1, hX 2, hX 3, hW, hB]
  rfl

/-- WHAT POINT t WRITES BACK is block t of the result row. -/
theorem stored_eq (c : Dev nD) (t : Fin cfg0.N) :
    (dats m 0 c).flushed 3 t = ((cfg0.win 3).blk t).view.read (Elt Ideal) (rowOut m c) := by
  show (cfg0.win 3).cut (grid0.coords t) ((dats m 0 c).after 3 t) = _
  rw [after0_3]
  funext y
  obtain ⟨-, -, -, -, -, -, e0, e1⟩ := index_facts t
  have hN : cfg0.N = 8 := N_0
  have ht : t.val < cfg0.N := t.isLt
  have hy0 : (y 0).val < 1 := (y 0).isLt
  have hy1 : (y 1).val < 8192 := (y 1).isLt
  have hy : (cfg0.win 3).xinj (grid0.coords t) y = (ix2 (0 : Fin 1) (⟨(y 1).val, hy1⟩ : Fin 8192) : S1x8192.Idx) :=
    funext fun a => Fin.ext (match a with
      | ⟨0, _⟩ => (by show (y 0).val = 0; omega)
      | ⟨1, _⟩ => rfl)
  have he : ((cfg0.win 3).blk t).view.emb y = (ix2 (0 : Fin 1) (⟨8192 * t.val + (y 1).val, by omega⟩ : Fin 65536) : S1x65536.Idx) :=
    funext fun a => Fin.ext (match a with
      | ⟨0, _⟩ => (by show win0_3.index t (0 : Fin 2) * 1 + 1 * (y 0).val = 0; omega)
      | ⟨1, _⟩ => (by show win0_3.index t (1 : Fin 2) * 8192 + 1 * (y 1).val = 8192 * t.val + (y 1).val; omega))
  show out0_3 (F := Ideal) (blkX m c t) (blkW m c t) (blkB m c t) ((cfg0.win 3).xinj (grid0.coords t) y)
    = rowOut m c (((cfg0.win 3).blk t).view.emb y)
  rw [hy, he]
  exact stored_lane m c t _ _ rfl

/-! ## From blocks to the row -/

/-- An index of the result row is in point t's block iff each coordinate is in the block's range on its axis. -/
theorem mem_block (t : Fin cfg0.N) (i : S1x65536.Idx) :
    i ∈ ((cfg0.win 3).blk t).view.set ↔ ∀ a : Fin 2, win0_3.index t a * S1x8192.size a ≤ (i a).val ∧ (i a).val < win0_3.index t a * S1x8192.size a + S1x8192.size a := by
  show i ∈ ((View.whole main_v3).slice (win0_3.rect t)).set ↔ _
  rw [View.set_slice_whole, Rect.mem_set_unit]
  exact Iff.rfl

/-- Column n of the row lies in the block of point n / 8192, which writes back: the eight blocks cover the row. -/
theorem row_covered (i : S1x65536.Idx) : ∃ t : Fin cfg0.N, (cfg0.win 3).flush t = true ∧ i ∈ ((cfg0.win 3).blk t).view.set := by
  have hi0 : (i 0).val < 1 := (i 0).isLt
  have hi1 : (i 1).val < 65536 := (i 1).isLt
  have hN : cfg0.N = 8 := N_0
  obtain ⟨t, htv⟩ : ∃ t : Fin cfg0.N, t.val = (i 1).val / 8192 := ⟨⟨(i 1).val / 8192, by rw [hN]; omega⟩, rfl⟩
  obtain ⟨-, -, -, -, -, -, e0, e1⟩ := index_facts t
  refine ⟨t, flush0_3 t, ?_⟩
  rw [mem_block]
  intro a
  match a with
  | ⟨0, _⟩ => show win0_3.index t (0 : Fin 2) * 1 ≤ (i 0).val ∧ (i 0).val < win0_3.index t (0 : Fin 2) * 1 + 1; omega
  | ⟨1, _⟩ => show win0_3.index t (1 : Fin 2) * 8192 ≤ (i 1).val ∧ (i 1).val < win0_3.index t (1 : Fin 2) * 8192 + 8192; omega

/-- THE ROW after the region: every entry the factored contraction for its sample. -/
theorem final_row (c : Dev nD) : (dats m 0 c).arrAt 3 cfg0.N = rowOut m c :=
  (dats m 0 c).arrAt_eq_of_cover 3 (rowOut m c) (fun t _ => stored_eq m c t) row_covered

/-! ## The host's transpose after the region -/

/-- The result array after the run: the row transposed into a column, which is the factored arrangement of the arguments. -/
theorem result_eq (c : Dev nD) :
    Pipeline.afterTail₀ cfgs (dats m) 0 (V0 m) [hostOps1] c main_v4 = factoredOut (argX m c) (argW m c) (argB m c) := by
  have h3 : Pipeline.withArrays spec0 c (V0 m c) (fun w => (dats m 0 c).arrAt w cfg0.N) (Proc.devRef .tc main_v3) = rowOut m c :=
    (Pipeline.withArrays_arr spec0 launch0.win.arr_inj c _ _ 3).trans (final_row m c)
  have e : Pipeline.afterTail₀ cfgs (dats m) 0 (V0 m) [hostOps1] c main_v4
      = transpose S65536x1 [1, 0] (rowOut m c) Facts₀.transposes_S1x65536_S65536x1_1_0 := by
    unfold Pipeline.afterTail₀
    show StableHlo.after hostOps1 _ (Proc.devRef .tc main_v4) = _
    after_results
    rw [h3]
  rw [e]
  funext i
  obtain ⟨n, z, rfl⟩ : ∃ (n : Fin 65536) (z : Fin 1), i = ix2 n z := ⟨i 0, i 1, eq_ix2 i⟩
  refine (transpose_ix2_apply (rowOut m c) _ n z).trans ?_
  rfl

end Blocks

/-- Every weakly fair execution of the idealized kernel program terminates with its result array at the factored
    arrangement of the argument arrays, the arguments unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
          = factoredOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.ArrayValue

end
-- ==== Proof.ReferenceLegendre.lean ====
/-
  The reference's stack of Legendre values.  The reference evaluates P₀ … P₇ on the whole 65536 × 4 input by
  Bonnet's recurrence, each degree from the two before it, and joins the eight arrays along a new last axis:
  entry (n, d, k) of the stack is the Legendre polynomial of degree k at x[n, d].
-/
import proofs.«165331_j79431125172612_1_alg».proof.Proof.Gen.ReferenceIdeal.Read
import proofs.«165331_j79431125172612_1_alg».proof.Proof.MultiPolySpec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.ReferenceIdeal.LegendreStack

open Cert.ReferenceIdeal Cert.ReferenceIdeal.Gen Cert.ReferenceIdeal.Read Idealize.ShloMosaic Idealize.ShloMosaic.ValueIdx Cert.MultiPoly

/-! ## The degrees, pointwise -/

/-- Degree 0: the constant 1 everywhere. -/
theorem deg0 (i : S65536x4.Idx) : val_main_v0 (F := Ideal) i = P0 := by
  rw [val_main_v0_apply, val_main_cst_apply]; rfl

/-- Degree 2: (3·x·x − 1·P₀) / 2. -/
theorem deg2 (X : FVec Ideal S65536x4 .f32) (i : S65536x4.Idx) : val_main_v8 (F := Ideal) X i = P2 (X i) := by
  rw [val_main_v8_apply, val_main_v6_apply, val_main_v3_apply, val_main_v2_apply, val_main_v1_apply, val_main_cst_0_apply,
    val_main_v5_apply, val_main_v4_apply, val_main_cst_1_apply, deg0, val_main_v7_apply, val_main_cst_2_apply]
  rfl

/-- Degree 3: (5·x·P₂ − 2·x) / 3. -/
theorem deg3 (X : FVec Ideal S65536x4 .f32) (i : S65536x4.Idx) : val_main_v16 (F := Ideal) X i = P3 (X i) := by
  rw [val_main_v16_apply, val_main_v14_apply, val_main_v11_apply, val_main_v10_apply, val_main_v9_apply, val_main_cst_3_apply,
    deg2, val_main_v13_apply, val_main_v12_apply, val_main_cst_4_apply, val_main_v15_apply, val_main_cst_5_apply]
  rfl

/-- Degree 4: (7·x·P₃ − 3·P₂) / 4. -/
theorem deg4 (X : FVec Ideal S65536x4 .f32) (i : S65536x4.Idx) : val_main_v24 (F := Ideal) X i = P4 (X i) := by
  rw [val_main_v24_apply, val_main_v22_apply, val_main_v19_apply, val_main_v18_apply, val_main_v17_apply, val_main_cst_6_apply,
    deg3, val_main_v21_apply, val_main_v20_apply, val_main_cst_7_apply, deg2, val_main_v23_apply, val_main_cst_8_apply]
  rfl

/-- Degree 5: (9·x·P₄ − 4·P₃) / 5. -/
theorem deg5 (X : FVec Ideal S65536x4 .f32) (i : S65536x4.Idx) : val_main_v32 (F := Ideal) X i = P5 (X i) := by
  rw [val_main_v32_apply, val_main_v30_apply, val_main_v27_apply, val_main_v26_apply, val_main_v25_apply, val_main_cst_9_apply,
    deg4, val_main_v29_apply, val_main_v28_apply, val_main_cst_10_apply, deg3, val_main_v31_apply, val_main_cst_11_apply]
  rfl

/-- Degree 6: (11·x·P₅ − 5·P₄) / 6. -/
theorem deg6 (X : FVec Ideal S65536x4 .f32) (i : S65536x4.Idx) : val_main_v40 (F := Ideal) X i = P6 (X i) := by
  rw [val_main_v40_apply, val_main_v38_apply, val_main_v35_apply, val_main_v34_apply, val_main_v33_apply, val_main_cst_12_apply,
    deg5, val_main_v37_apply, val_main_v36_apply, val_main_cst_13_apply, deg4, val_main_v39_apply, val_main_cst_14_apply]
  rfl

/-- Degree 7: (13·x·P₆ − 6·P₅) / 7. -/
theorem deg7 (X : FVec Ideal S65536x4 .f32) (i : S65536x4.Idx) : val_main_v48 (F := Ideal) X i = P7 (X i) := by
  rw [val_main_v48_apply, val_main_v46_apply, val_main_v43_apply, val_main_v42_apply, val_main_v41_apply, val_main_cst_15_apply,
    deg6, val_main_v45_apply, val_main_v44_apply, val_main_cst_16_apply, deg5, val_main_v47_apply, val_main_cst_17_apply]
  rfl

/-! ## The eight broadcasts and the join -/

/-- The index a broadcast to a trailing unit axis reads: the first two coordinates. -/
theorem idx_unit (n : Fin 65536) (d : Fin 4) (u : Fin 1) : idx_main_v50 (ix3 n d u) = ix2 n d :=
  funext fun a => Fin.ext (by match a with | ⟨0, _⟩ => rfl | ⟨1, _⟩ => rfl)

/-- Off the joined axis a piece's index has the stack's coordinates. -/
theorem off_axis (n : Fin 65536) (d : Fin 4) (k : Fin 8) (hr : S65536x4x1.rank = S65536x4x8.rank) :
    ∀ b : Fin S65536x4x1.rank, b.cast hr ≠ (2 : Fin S65536x4x8.rank) →
      ((ix3 n d (0 : Fin 1) : S65536x4x1.Idx) b).val = ((ix3 n d k : S65536x4x8.Idx) (b.cast hr)).val := by
  intro b hb
  match b with
  | ⟨0, _⟩ => rfl
  | ⟨1, _⟩ => rfl
  | ⟨2, _⟩ => exact absurd rfl hb

/-- Entry (n, d, k) of the stacked array is the Legendre polynomial of degree `k` at `x[n, d]`.
    Each of the eight pieces has extent 1 on the joined axis, so coordinate k falls in piece k (the k pieces before it
    cover 0 … k−1) at position 0; piece k is degree k's array read at (n, d). -/
theorem stack_apply (X : FVec Ideal S65536x4 .f32) (n : Fin 65536) (d : Fin 4) (k : Fin 8) :
    val_main_v57 (F := Ideal) X (ix3 n d k) = leg k (X (ix2 n d)) :=
  match k with
  | ⟨0, hk⟩ => by
    unfold val_main_v57
    refine (concatenate_apply_piece 2 _ _ (ix3 n d (⟨0, hk⟩ : Fin 8)) 0 (by show (0 : Nat) < 8; omega) S65536x4x1 (val_main_v49 (F := Ideal)) rfl rfl
      0 rfl (ix3 n d 0) (off_axis n d ⟨0, hk⟩ rfl) rfl).trans ?_
    rw [val_main_v49_apply, deg0]
    rfl
  | ⟨1, hk⟩ => by
    unfold val_main_v57
    refine (concatenate_apply_piece 2 _ _ (ix3 n d (⟨1, hk⟩ : Fin 8)) 1 (by show (1 : Nat) < 8; omega) S65536x4x1 (val_main_v50 (F := Ideal) X) rfl rfl
      1 rfl (ix3 n d 0) (off_axis n d ⟨1, hk⟩ rfl) rfl).trans ?_
    rw [val_main_v50_apply, idx_unit n d 0]
    rfl
  | ⟨2, hk⟩ => by
    unfold val_main_v57
    refine (concatenate_apply_piece 2 _ _ (ix3 n d (⟨2, hk⟩ : Fin 8)) 2 (by show (2 : Nat) < 8; omega) S65536x4x1 (val_main_v51 (F := Ideal) X) rfl rfl
      2 rfl (ix3 n d 0) (off_axis n d ⟨2, hk⟩ rfl) rfl).trans ?_
    rw [val_main_v51_apply, show idx_main_v51 (ix3 n d (0 : Fin 1)) = ix2 n d from idx_unit n d 0, deg2]
    rfl
  | ⟨3, hk⟩ => by
    unfold val_main_v57
    refine (concatenate_apply_piece 2 _ _ (ix3 n d (⟨3, hk⟩ : Fin 8)) 3 (by show (3 : Nat) < 8; omega) S65536x4x1 (val_main_v52 (F := Ideal) X) rfl rfl
      3 rfl (ix3 n d 0) (off_axis n d ⟨3, hk⟩ rfl) rfl).trans ?_
    rw [val_main_v52_apply, show idx_main_v52 (ix3 n d (0 : Fin 1)) = ix2 n d from idx_unit n d 0, deg3]
    rfl
  | ⟨4, hk⟩ => by
    unfold val_main_v57
    refine (concatenate_apply_piece 2 _ _ (ix3 n d (⟨4, hk⟩ : Fin 8)) 4 (by show (4 : Nat) < 8; omega) S65536x4x1 (val_main_v53 (F := Ideal) X) rfl rfl
      4 rfl (ix3 n d 0) (off_axis n d ⟨4, hk⟩ rfl) rfl).trans ?_
    rw [val_main_v53_apply, show idx_main_v53 (ix3 n d (0 : Fin 1)) = ix2 n d from idx_unit n d 0, deg4]
    rfl
  | ⟨5, hk⟩ => by
    unfold val_main_v57
    refine (concatenate_apply_piece 2 _ _ (ix3 n d (⟨5, hk⟩ : Fin 8)) 5 (by show (5 : Nat) < 8; omega) S65536x4x1 (val_main_v54 (F := Ideal) X) rfl rfl
      5 rfl (ix3 n d 0) (off_axis n d ⟨5, hk⟩ rfl) rfl).trans ?_
    rw [val_main_v54_apply, show idx_main_v54 (ix3 n d (0 : Fin 1)) = ix2 n d from idx_unit n d 0, deg5]
    rfl
  | ⟨6, hk⟩ => by
    unfold val_main_v57
    refine (concatenate_apply_piece 2 _ _ (ix3 n d (⟨6, hk⟩ : Fin 8)) 6 (by show (6 : Nat) < 8; omega) S65536x4x1 (val_main_v55 (F := Ideal) X) rfl rfl
      6 rfl (ix3 n d 0) (off_axis n d ⟨6, hk⟩ rfl) rfl).trans ?_
    rw [val_main_v55_apply, show idx_main_v55 (ix3 n d (0 : Fin 1)) = ix2 n d from idx_unit n d 0, deg6]
    rfl
  | ⟨7, hk⟩ => by
    unfold val_main_v57
    refine (concatenate_apply_piece 2 _ _ (ix3 n d (⟨7, hk⟩ : Fin 8)) 7 (by show (7 : Nat) < 8; omega) S65536x4x1 (val_main_v56 (F := Ideal) X) rfl rfl
      7 rfl (ix3 n d 0) (off_axis n d ⟨7, hk⟩ rfl) rfl).trans ?_
    rw [val_main_v56_apply, show idx_main_v56 (ix3 n d (0 : Fin 1)) = ix2 n d from idx_unit n d 0, deg7]
    rfl
  | ⟨m + 8, h⟩ => absurd h (by omega)

end Cert.ReferenceIdeal.LegendreStack

end
-- ==== Proof.ReferenceFlat.lean ====
/-
  The reference computes the flat arrangement.  It evaluates the eight Legendre polynomials on the whole
  65536 × 4 input by Bonnet's recurrence, stacks them along a new last axis (entry (n, d, k) is P_k(x[n, d])),
  then builds the features coordinate by coordinate: feat₁[n, i₀·8 + i₁] = P_{i₀}(x[n,0])·P_{i₁}(x[n,1]),
  feat₂[n, r·8 + i₂] = feat₁[n, r]·P_{i₂}(x[n,2]), feat₃[n, r·8 + i₃] = feat₂[n, r]·P_{i₃}(x[n,3]), each a broadcast
  product reshaped row-major; the result is feat₃ · Wᵀ + b.
-/
import proofs.«165331_j79431125172612_1_alg».proof.Proof.Gen.ReferenceIdeal.Read
import proofs.«165331_j79431125172612_1_alg».proof.Proof.MultiPolySpec
import proofs.«165331_j79431125172612_1_alg».proof.Proof.ReferenceLegendre
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.FlatValue

open Cert.ReferenceIdeal Cert.ReferenceIdeal.Gen Cert.ReferenceIdeal.Read Idealize.ShloMosaic Idealize.ShloMosaic.ValueIdx Cert.MultiPoly

/-! ## Digits of a row-major position -/

/-- The position with its last base-8 digit dropped: 512 → 64. -/
def up64 (r : Fin 512) : Fin 64 := ⟨r.val / 8, by omega⟩
/-- The last base-8 digit of a position below 512. -/
def low512 (r : Fin 512) : Fin 8 := ⟨r.val % 8, by omega⟩
/-- The position with its last base-8 digit dropped: 4096 → 512. -/
def up512 (f : Fin 4096) : Fin 512 := ⟨f.val / 8, by omega⟩
/-- The last base-8 digit of a position below 4096. -/
def low4096 (f : Fin 4096) : Fin 8 := ⟨f.val % 8, by omega⟩

theorem dig0_eq (f : Fin 4096) : hi8 (up64 (up512 f)) = dig0 f :=
  Fin.ext (by show f.val / 8 / 8 / 8 = f.val / 512; omega)
theorem dig1_eq (f : Fin 4096) : lo8 (up64 (up512 f)) = dig1 f :=
  Fin.ext (by show f.val / 8 / 8 % 8 = f.val / 64 % 8; omega)
theorem dig2_eq (f : Fin 4096) : low512 (up512 f) = dig2 f := rfl
theorem dig3_eq (f : Fin 4096) : low4096 f = dig3 f := rfl

/-! ## The four slices: coordinate d of the stack, as a [65536, 8] array -/

/-- Row-major position (n, k) of [65536, 8] is position (n, 0, k) of [65536, 1, 8]; the slice starts at coordinate 0. -/
theorem idx_slice0 (n : Fin 65536) (k : Fin 8) : idx_main_v58 (idx_main_v59 (ix2 n k)) = ix3 n (0 : Fin 4) k :=
  funext fun a => Fin.ext (by
    have hn := n.isLt; have hk := k.isLt
    match a with
    | ⟨0, _⟩ => show (n.val * 8 + k.val) / 8 = n.val; omega
    | ⟨1, _⟩ => rfl
    | ⟨2, _⟩ => show (n.val * 8 + k.val) % 8 = k.val; omega)
/-- The same for the slice that starts at coordinate 1. -/
theorem idx_slice1 (n : Fin 65536) (k : Fin 8) : idx_main_v61 (idx_main_v62 (ix2 n k)) = ix3 n (1 : Fin 4) k :=
  funext fun a => Fin.ext (by
    have hn := n.isLt; have hk := k.isLt
    match a with
    | ⟨0, _⟩ => show (n.val * 8 + k.val) / 8 = n.val; omega
    | ⟨1, _⟩ => rfl
    | ⟨2, _⟩ => show (n.val * 8 + k.val) % 8 = k.val; omega)
/-- At coordinate 2. -/
theorem idx_slice2 (n : Fin 65536) (k : Fin 8) : idx_main_v69 (idx_main_v70 (ix2 n k)) = ix3 n (2 : Fin 4) k :=
  funext fun a => Fin.ext (by
    have hn := n.isLt; have hk := k.isLt
    match a with
    | ⟨0, _⟩ => show (n.val * 8 + k.val) / 8 = n.val; omega
    | ⟨1, _⟩ => rfl
    | ⟨2, _⟩ => show (n.val * 8 + k.val) % 8 = k.val; omega)
/-- At coordinate 3. -/
theorem idx_slice3 (n : Fin 65536) (k : Fin 8) : idx_main_v77 (idx_main_v78 (ix2 n k)) = ix3 n (3 : Fin 4) k :=
  funext fun a => Fin.ext (by
    have hn := n.isLt; have hk := k.isLt
    match a with
    | ⟨0, _⟩ => show (n.val * 8 + k.val) / 8 = n.val; omega
    | ⟨1, _⟩ => rfl
    | ⟨2, _⟩ => show (n.val * 8 + k.val) % 8 = k.val; omega)

/-- Entry (n, k) of the first slice is P_k(x[n, 0]). -/
theorem slice0 (X : FVec Ideal S65536x4 .f32) (n : Fin 65536) (k : Fin 8) :
    val_main_v59 (F := Ideal) X (ix2 n k) = leg k (X (ix2 n 0)) := by
  rw [val_main_v59_apply, val_main_v58_apply, idx_slice0, LegendreStack.stack_apply]
/-- Entry (n, k) of the second slice is P_k(x[n, 1]). -/
theorem slice1 (X : FVec Ideal S65536x4 .f32) (n : Fin 65536) (k : Fin 8) :
    val_main_v62 (F := Ideal) X (ix2 n k) = leg k (X (ix2 n 1)) := by
  rw [val_main_v62_apply, val_main_v61_apply, idx_slice1, LegendreStack.stack_apply]
/-- Entry (n, k) of the third slice is P_k(x[n, 2]). -/
theorem slice2 (X : FVec Ideal S65536x4 .f32) (n : Fin 65536) (k : Fin 8) :
    val_main_v70 (F := Ideal) X (ix2 n k) = leg k (X (ix2 n 2)) := by
  rw [val_main_v70_apply, val_main_v69_apply, idx_slice2, LegendreStack.stack_apply]
/-- Entry (n, k) of the fourth slice is P_k(x[n, 3]). -/
theorem slice3 (X : FVec Ideal S65536x4 .f32) (n : Fin 65536) (k : Fin 8) :
    val_main_v78 (F := Ideal) X (ix2 n k) = leg k (X (ix2 n 3)) := by
  rw [val_main_v78_apply, val_main_v77_apply, idx_slice3, LegendreStack.stack_apply]

/-! ## The three broadcast products and their row-major reshapes -/

/-- Entry (n, a, b) of the first product reads its left operand at (n, a) of the first slice … -/
theorem idx_left1 (n : Fin 65536) (a b : Fin 8) : idx_main_v60 (idx_main_v64 (ix3 n a b)) = ix2 n a :=
  funext fun c => by match c with | ⟨0, _⟩ => rfl | ⟨1, _⟩ => rfl
/-- … and its right operand at (n, b) of the second. -/
theorem idx_right1 (n : Fin 65536) (a b : Fin 8) : idx_main_v63 (idx_main_v65 (ix3 n a b)) = ix2 n b :=
  funext fun c => by match c with | ⟨0, _⟩ => rfl | ⟨1, _⟩ => rfl

/-- The first product: entry (n, a, b) is P_a(x[n,0]) · P_b(x[n,1]). -/
theorem prod1 (X : FVec Ideal S65536x4 .f32) (n : Fin 65536) (a b : Fin 8) :
    val_main_v66 (F := Ideal) X (ix3 n a b) = leg a (X (ix2 n 0)) * leg b (X (ix2 n 1)) := by
  rw [val_main_v66_apply, Ideal.mulf_def, val_main_v64_apply, val_main_v60_apply, idx_left1, slice0,
    val_main_v65_apply, val_main_v63_apply, idx_right1, slice1]

/-- Row-major position (n, p) of [65536, 64] is (n, p / 8, p % 8) of [65536, 8, 8]. -/
theorem idx_reshape1 (n : Fin 65536) (p : Fin 64) : idx_main_v67 (ix2 n p) = ix3 n (hi8 p) (lo8 p) :=
  funext fun a => Fin.ext (by
    have hn := n.isLt; have hp := p.isLt
    match a with
    | ⟨0, _⟩ => show (n.val * 64 + p.val) / 64 = n.val; omega
    | ⟨1, _⟩ => show (n.val * 64 + p.val) / 8 % 8 = p.val / 8; omega
    | ⟨2, _⟩ => show (n.val * 64 + p.val) % 8 = p.val % 8; omega)

/-- feat₁[n, p] = P_{p/8}(x[n,0]) · P_{p%8}(x[n,1]). -/
theorem feat1 (X : FVec Ideal S65536x4 .f32) (n : Fin 65536) (p : Fin 64) :
    val_main_v67 (F := Ideal) X (ix2 n p) = leg (hi8 p) (X (ix2 n 0)) * leg (lo8 p) (X (ix2 n 1)) := by
  rw [val_main_v67_apply, idx_reshape1, prod1]

/-- Entry (n, p, c) of the second product reads feat₁ at (n, p) … -/
theorem idx_left2 (n : Fin 65536) (p : Fin 64) (c : Fin 8) : idx_main_v68 (idx_main_v72 (ix3 n p c)) = ix2 n p :=
  funext fun e => by match e with | ⟨0, _⟩ => rfl | ⟨1, _⟩ => rfl
/-- … and the third slice at (n, c). -/
theorem idx_right2 (n : Fin 65536) (p : Fin 64) (c : Fin 8) : idx_main_v71 (idx_main_v73 (ix3 n p c)) = ix2 n c :=
  funext fun e => by match e with | ⟨0, _⟩ => rfl | ⟨1, _⟩ => rfl

/-- The second product: entry (n, p, c) is feat₁[n, p] · P_c(x[n,2]). -/
theorem prod2 (X : FVec Ideal S65536x4 .f32) (n : Fin 65536) (p : Fin 64) (c : Fin 8) :
    val_main_v74 (F := Ideal) X (ix3 n p c)
      = (leg (hi8 p) (X (ix2 n 0)) * leg (lo8 p) (X (ix2 n 1))) * leg c (X (ix2 n 2)) := by
  rw [val_main_v74_apply, Ideal.mulf_def, val_main_v72_apply, val_main_v68_apply, idx_left2, feat1,
    val_main_v73_apply, val_main_v71_apply, idx_right2, slice2]

/-- Row-major position (n, r) of [65536, 512] is (n, r / 8, r % 8) of [65536, 64, 8]. -/
theorem idx_reshape2 (n : Fin 65536) (r : Fin 512) : idx_main_v75 (ix2 n r) = ix3 n (up64 r) (low512 r) :=
  funext fun a => Fin.ext (by
    have hn := n.isLt; have hr := r.isLt
    match a with
    | ⟨0, _⟩ => show (n.val * 512 + r.val) / 512 = n.val; omega
    | ⟨1, _⟩ => show (n.val * 512 + r.val) / 8 % 64 = r.val / 8; omega
    | ⟨2, _⟩ => show (n.val * 512 + r.val) % 8 = r.val % 8; omega)

/-- feat₂[n, r] = feat₁[n, r / 8] · P_{r%8}(x[n,2]). -/
theorem feat2 (X : FVec Ideal S65536x4 .f32) (n : Fin 65536) (r : Fin 512) :
    val_main_v75 (F := Ideal) X (ix2 n r)
      = (leg (hi8 (up64 r)) (X (ix2 n 0)) * leg (lo8 (up64 r)) (X (ix2 n 1))) * leg (low512 r) (X (ix2 n 2)) := by
  rw [val_main_v75_apply, idx_reshape2, prod2]

/-- Entry (n, r, c) of the third product reads feat₂ at (n, r) … -/
theorem idx_left3 (n : Fin 65536) (r : Fin 512) (c : Fin 8) : idx_main_v76 (idx_main_v80 (ix3 n r c)) = ix2 n r :=
  funext fun e => by match e with | ⟨0, _⟩ => rfl | ⟨1, _⟩ => rfl
/-- … and the fourth slice at (n, c). -/
theorem idx_right3 (n : Fin 65536) (r : Fin 512) (c : Fin 8) : idx_main_v79 (idx_main_v81 (ix3 n r c)) = ix2 n c :=
  funext fun e => by match e with | ⟨0, _⟩ => rfl | ⟨1, _⟩ => rfl

/-- The third product: entry (n, r, c) is feat₂[n, r] · P_c(x[n,3]). -/
theorem prod3 (X : FVec Ideal S65536x4 .f32) (n : Fin 65536) (r : Fin 512) (c : Fin 8) :
    val_main_v82 (F := Ideal) X (ix3 n r c)
      = ((leg (hi8 (up64 r)) (X (ix2 n 0)) * leg (lo8 (up64 r)) (X (ix2 n 1))) * leg (low512 r) (X (ix2 n 2)))
        * leg c (X (ix2 n 3)) := by
  rw [val_main_v82_apply, Ideal.mulf_def, val_main_v80_apply, val_main_v76_apply, idx_left3, feat2,
    val_main_v81_apply, val_main_v79_apply, idx_right3, slice3]

/-- Row-major position (n, f) of [65536, 4096] is (n, f / 8, f % 8) of [65536, 512, 8]. -/
theorem idx_reshape3 (n : Fin 65536) (f : Fin 4096) : idx_main_v83 (ix2 n f) = ix3 n (up512 f) (low4096 f) :=
  funext fun a => Fin.ext (by
    have hn := n.isLt; have hf := f.isLt
    match a with
    | ⟨0, _⟩ => show (n.val * 4096 + f.val) / 4096 = n.val; omega
    | ⟨1, _⟩ => show (n.val * 4096 + f.val) / 8 % 512 = f.val / 8; omega
    | ⟨2, _⟩ => show (n.val * 4096 + f.val) % 8 = f.val % 8; omega)

/-- feat₃[n, f] is the product of the four polynomials picked by the base-8 digits of f. -/
theorem feat3 (X : FVec Ideal S65536x4 .f32) (n : Fin 65536) (f : Fin 4096) :
    val_main_v83 (F := Ideal) X (ix2 n f)
      = ((leg (dig0 f) (X (ix2 n 0)) * leg (dig1 f) (X (ix2 n 1))) * leg (dig2 f) (X (ix2 n 2)))
        * leg (dig3 f) (X (ix2 n 3)) := by
  rw [val_main_v83_apply, idx_reshape3, prod3, dig0_eq, dig1_eq, dig2_eq, dig3_eq]

/-! ## The contraction with the transposed weights, and the bias -/

/-- The reference's last stage is the flat arrangement of its arguments. -/
theorem reference_is_flat (X : FVec Ideal S65536x4 .f32) (Wt : FVec Ideal S1x4096 .f32) (Bv : FVec Ideal S1 .f32) :
    val_main_v88 (F := Ideal) X Wt Bv = flatOut X Wt Bv := by
  funext i
  obtain ⟨n, u, rfl⟩ : ∃ (n : Fin 65536) (u : Fin 1), i = ix2 n u := ⟨i 0, i 1, eq_ix2 i⟩
  -- the bias, broadcast twice, is Bv[0] everywhere
  have hb : idx_main_v86 (idx_main_v87 (ix2 n u)) = ix1 (0 : Fin 1) :=
    funext fun a => by match a with | ⟨0, _⟩ => rfl
  -- term k of the contraction reads feat₃ at (n, k) …
  have hl : ∀ k : Fin 4096, lidx_main_v85 (ix2 n u) k = ix2 n k := fun k =>
    funext fun a => by match a with | ⟨0, _⟩ => rfl | ⟨1, _⟩ => rfl
  -- … and the transposed weights at (k, 0), which is W[0, k]
  have hr : ∀ k : Fin 4096, idx_main_v84 (ridx_main_v85 (ix2 n u) k) = ix2 (0 : Fin 1) k := fun k =>
    funext fun a => Fin.ext (by
      have hu := u.isLt
      match a with
      | ⟨0, _⟩ => show u.val = 0; omega
      | ⟨1, _⟩ => rfl)
  rw [val_main_v88_apply, Ideal.addf_def, val_main_v85_apply, val_main_v87_apply, val_main_v86_apply, hb]
  unfold flatOut flatVal
  refine congrArg (· + Bv (ix1 0)) ?_
  refine Finset.sum_congr rfl fun k _ => ?_
  rw [hl k, val_main_v84_apply, hr k, feat3]

end Cert.ReferenceIdeal.FlatValue

end
-- ==== Proof.FiniteInputs.lean ====
/-
  What the precondition says of the inputs: `finite_inputs` is the conjunction, over the three argument arrays, of
  "every entry's absolute value is below +∞".  On the extended reals an entry with |x| < +∞ is a real number.
  Only x and W are needed: the bias is added last on both sides.
-/
import proofs.«165331_j79431125172612_1_alg».proof.Pre_finite_inputs
import proofs.«165331_j79431125172612_1_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.IdealHost

noncomputable section

namespace Cert.FiniteInputs

open Idealize.ShloMosaic Cert.Pre_finite_inputs

/-- The pattern with exponent field all ones and significand zero, sign clear, denotes +∞. -/
theorem ofBits_inf : Ideal.ofBits .f32 0x7F800000#32 = (⊤ : EReal) := by
  simp [Ideal.ofBits, Ideal.ieee]

/-- The element step, on one extended real: |a| = max a (-a), and |⊥| = |⊤| = ⊤ is not below ⊤,
    so |a| < ⊤ leaves only the case of a real number. -/
theorem real_of_abs_lt_top (a : EReal) (h : Ideal.cmp .olt (max a (-a)) ⊤ = 1#1) : ∃ r : ℝ, a = (r : EReal) := by
  induction a using EReal.rec with
  | bot => simp [Ideal.cmp] at h
  | coe r => exact ⟨r, rfl⟩
  | top => simp [Ideal.cmp] at h

/-- The rank-0 shape has exactly one index (the empty tuple). -/
instance subsingleton_S_Idx : Subsingleton S_.Idx := ⟨fun a b => funext fun d => d.elim0⟩

/-- One array: if the conjunction over all entries of "|entry| < +∞" is true, each entry is a real number.
    The conjunction being true gives the comparison at every index; there the right operand is the scalar +∞
    read through the broadcast, and the left operand is max (x i) (-(x i)). -/
theorem real_of_all {s : Shape} {axes : List (Fin s.rank)} (hb : S_.BroadcastsInDim s (![] : Fin 0 → Fin s.rank))
    (hr : s.ReducesTo axes S_) (hu : 0 < S_.numel) (x : FVec Ideal s .f32)
    (e : Host.reduce IntOp.andi (cmpf .olt (Host.absf x) (broadcastInDim s ![] hb (constant S_ .f32 0x7F800000#32)))
      (constantI S_ 1 1#1) hr hu ValueIdx.ix0 = 1#1) (i : s.Idx) : ∃ r : ℝ, x i = (r : EReal) := by
  have e1 := Host.reduce_andi_all _ _ hr hu _ e i
  rw [ValueIdx.cmpf_apply, ValueIdx.broadcastInDim_scalar_apply] at e1
  have e2 : Ideal.cmp .olt (max (x i) (-(x i))) (Ideal.ofBits .f32 0x7F800000#32) = 1#1 := e1
  rw [ofBits_inf] at e2
  exact real_of_abs_lt_top _ e2

/-- Under the precondition every entry of `x` and of `W` is a real number. -/
theorem real_of_pre [Cert.Pre_finite_inputs.Facts] (x : FVec Ideal S65536x4 .f32) (w : FVec Ideal S1x4096 .f32) (b : FVec Ideal S1 .f32)
    (h : Cert.Pre_finite_inputs.fn (F := Ideal) x w b = fun _ => 1#1) :
    (∀ i, ∃ r : ℝ, x i = (r : EReal)) ∧ (∀ i, ∃ r : ℝ, w i = (r : EReal)) := by
  -- the one index of the result; the word there is (all_x ∧ all_w) ∧ all_b
  have h0 := congrFun h ValueIdx.ix0
  dsimp only [Cert.Pre_finite_inputs.fn] at h0
  obtain ⟨hxw, _⟩ := IntOp.andi_eq_one.1 h0
  obtain ⟨hx, hw⟩ := IntOp.andi_eq_one.1 hxw
  exact ⟨real_of_all _ _ _ x hx, real_of_all _ _ _ w hw⟩

end Cert.FiniteInputs

end
-- ==== Proof.lean ====
/-
  The kernel against its reference: a multivariate Legendre feature map followed by a linear layer.

  For each of 65536 samples x = (x₀, x₁, x₂, x₃) both programs evaluate the Legendre polynomials P₀ … P₇ at the four
  coordinates by Bonnet's recurrence (the same operations in the same order), and return
  Σ_f P_{i₀}(x₀)·P_{i₁}(x₁)·P_{i₂}(x₂)·P_{i₃}(x₃) · W_f + b over the 4096 feature numbers f = ((i₀·8 + i₁)·8 + i₂)·8 + i₃.
  The reference forms the 4096 products and contracts them with W at once (the flat arrangement).  The kernel
  works on the transposed input in blocks of 8192 samples, groups the indices as p = i₀·8 + i₁ and q = i₂·8 + i₃,
  contracts W (read as a 64 × 64 matrix) with the products of the last two coordinates first, and then sums the
  products of the first two coordinates against the result (the factored arrangement).

  `frame`: both kernel programs by their generated frame; the reference by its generated run.
  `preserves`: the idealization rewrote nothing.
  `algebraic`: the kernel's result array is the factored arrangement of its arguments (read off its frame run,
  blocks to array, through the host's transposes and reshapes); the reference's is the flat one (its run read
  stage by stage); under the precondition every entry of x and W is a real number, and there the two
  arrangements agree by distributivity (it fails at infinities, which is where finiteness is used).  The bias is
  added last on both sides and needs no finiteness.
-/
import proofs.«165331_j79431125172612_1_alg».proof.Defs
import proofs.«165331_j79431125172612_1_alg».proof.Proof.Gen.Kernel
import proofs.«165331_j79431125172612_1_alg».proof.Proof.Gen.Kernel.Skeleton
import proofs.«165331_j79431125172612_1_alg».proof.Proof.Gen.Kernel.Launch
import proofs.«165331_j79431125172612_1_alg».proof.Proof.Gen.Kernel.Points
import proofs.«165331_j79431125172612_1_alg».proof.Proof.Gen.Kernel.Frame
import proofs.«165331_j79431125172612_1_alg».proof.Proof.Gen.KernelIdeal
import proofs.«165331_j79431125172612_1_alg».proof.Proof.Gen.KernelIdeal.Skeleton
import proofs.«165331_j79431125172612_1_alg».proof.Proof.Gen.KernelIdeal.Launch
import proofs.«165331_j79431125172612_1_alg».proof.Proof.Gen.KernelIdeal.Points
import proofs.«165331_j79431125172612_1_alg».proof.Proof.Gen.KernelIdeal.Frame
import proofs.«165331_j79431125172612_1_alg».proof.Proof.Gen.ReferenceIdeal
import proofs.«165331_j79431125172612_1_alg».proof.Proof.Gen.ReferenceIdeal.Run
import proofs.«165331_j79431125172612_1_alg».proof.Proof.Gen.ReferenceIdeal.Read
import proofs.«165331_j79431125172612_1_alg».proof.Proof.Gen.Pre_finite_inputs
import proofs.«165331_j79431125172612_1_alg».proof.Proof.MultiPolySpec
import proofs.«165331_j79431125172612_1_alg».proof.Proof.MultiPolyLaw
import proofs.«165331_j79431125172612_1_alg».proof.Proof.KernelArray
import proofs.«165331_j79431125172612_1_alg».proof.Proof.ReferenceFlat
import proofs.«165331_j79431125172612_1_alg».proof.Proof.FiniteInputs
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the flat arrangement of the arguments: the reference by its own text, the kernel at
    the factored arrangement, which is the flat one where x and W are finite. -/
theorem algebraic : Cert.algebraic_KernelIdeal_ReferenceIdeal := by
  intro m ρ m' ρ' hpre hagree
  refine ⟨fun c => Cert.MultiPoly.flatOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.KernelIdeal.ArrayValue.kernel_run m ρ)
    obtain ⟨hX, hW⟩ := Cert.FiniteInputs.real_of_pre _ _ _ (hpre c)
    exact Cert.MultiPoly.factoredOut_eq_flatOut _ _ _ hX hW
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v88_eq, Cert.ReferenceIdeal.FlatValue.reference_is_flat,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
